-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩

class Facts : Prop where
  slices_S2x800000_S1x800000_0_0 : S2x800000.Slices ![0, 0] S1x800000
  shapeCasts_S1x800000_S800000 : S1x800000.ShapeCasts S800000
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S800000 : S_.BroadcastsInDim S800000 (![] : Fin 0 → Fin S800000.rank)
  reducesTo_S800000_S_d0 : S800000.ReducesTo [0] S_

variable [Facts]

def fn_part2 {F : FTy → Type} [FloatOps F] (main_v1 : IVec S800000 32) (main_v30 : IVec S_ 1) (main_v33 : IVec S128 1) (main_c_11 : IVec S_ 1) : IVec S_ 1 :=
  let main_v34 : IVec S_ 1 := (fun x v => Host.reduce IntOp.andi x v reducesTo_S128_S_d0 h_S_) main_v33 main_c_11
  let main_v35 : IVec S_ 1 := andi main_v30 main_v34
  let main_c_12 : IVec S_ 32 := constantI S_ 32 4294917296#32
  let main_v36 : IVec S800000 32 := broadcastInDim S800000 ![] bcast_S_S800000 main_c_12
  let main_v37 : IVec S800000 1 := cmpi .sge main_v1 main_v36
  let main_c_13 : IVec S_ 32 := constantI S_ 32 50000#32
  let main_v38 : IVec S800000 32 := broadcastInDim S800000 ![] bcast_S_S800000 main_c_13
  let main_v39 : IVec S800000 1 := cmpi .slt main_v1 main_v38
  let main_v40 : IVec S800000 1 := andi main_v37 main_v39
  let main_c_14 : IVec S_ 1 := constantI S_ 1 1#1
  let main_v41 : IVec S_ 1 := (fun x v => Host.reduce IntOp.andi x v reducesTo_S800000_S_d0 h_S_) main_v40 main_c_14
  let main_v42 : IVec S_ 1 := andi main_v35 main_v41
  main_v42

def fn_part1 {F : FTy → Type} [FloatOps F] (main_arg5 : FVec F S128x128 .f32) (main_arg6 : FVec F S128x128 .f32) (main_arg7 : FVec F S128 .f32) (main_v1 : IVec S800000 32) (main_v15 : IVec S_ 1) (main_v16 : FVec F S128 .f32) (main_cst_4 : FVec F S_ .f32) : IVec S_ 1 :=
  let main_v17 : FVec F S128 .f32 := broadcastInDim S128 ![] bcast_S_S128 main_cst_4
  let main_v18 : IVec S128 1 := cmpf .olt main_v16 main_v17
  let main_c_5 : IVec S_ 1 := constantI S_ 1 1#1
  let main_v19 : IVec S_ 1 := (fun x v => Host.reduce IntOp.andi x v reducesTo_S128_S_d0 h_S_) main_v18 main_c_5
  let main_v20 : IVec S_ 1 := andi main_v15 main_v19
  let main_v21 : FVec F S128x128 .f32 := Host.absf main_arg5
  let main_cst_6 : FVec F S_ .f32 := constant S_ .f32 0x7F800000#32
  let main_v22 : FVec F S128x128 .f32 := broadcastInDim S128x128 ![] bcast_S_S128x128 main_cst_6
  let main_v23 : IVec S128x128 1 := cmpf .olt main_v21 main_v22
  let main_c_7 : IVec S_ 1 := constantI S_ 1 1#1
  let main_v24 : IVec S_ 1 := (fun x v => Host.reduce IntOp.andi x v reducesTo_S128x128_S_d0_1 h_S_) main_v23 main_c_7
  let main_v25 : IVec S_ 1 := andi main_v20 main_v24
  let main_v26 : FVec F S128x128 .f32 := Host.absf main_arg6
  let main_cst_8 : FVec F S_ .f32 := constant S_ .f32 0x7F800000#32
  let main_v27 : FVec F S128x128 .f32 := broadcastInDim S128x128 ![] bcast_S_S128x128 main_cst_8
  let main_v28 : IVec S128x128 1 := cmpf .olt main_v26 main_v27
  let main_c_9 : IVec S_ 1 := constantI S_ 1 1#1
  let main_v29 : IVec S_ 1 := (fun x v => Host.reduce IntOp.andi x v reducesTo_S128x128_S_d0_1 h_S_) main_v28 main_c_9
  let main_v30 : IVec S_ 1 := andi main_v25 main_v29
  let main_v31 : FVec F S128 .f32 := Host.absf main_arg7
  let main_cst_10 : FVec F S_ .f32 := constant S_ .f32 0x7F800000#32
  let main_v32 : FVec F S128 .f32 := broadcastInDim S128 ![] bcast_S_S128 main_cst_10
  let main_v33 : IVec S128 1 := cmpf .olt main_v31 main_v32
  let main_c_11 : IVec S_ 1 := constantI S_ 1 1#1
  fn_part2 (F := F) main_v1 main_v30 main_v33 main_c_11

def fn {F : FTy → Type} [FloatOps F] (main_arg0 : FVec F S50000x64 .f32) (main_arg1 : IVec S2x800000 32) (main_arg2 : FVec F S128x64 .f32) (main_arg3 : FVec F S128x64 .f32) (main_arg4 : FVec F S128 .f32) (main_arg5 : FVec F S128x128 .f32) (main_arg6 : FVec F S128x128 .f32) (main_arg7 : FVec F S128 .f32) : IVec S_ 1 :=
  let main_v0 : IVec S1x800000 32 := (extractStridedSlice S1x800000 ![0, 0] · slices_S2x800000_S1x800000_0_0) main_arg1
  let main_v1 : IVec S800000 32 := shapeCast S800000 main_v0 shapeCasts_S1x800000_S800000
  let main_v2 : FVec F S50000x64 .f32 := Host.absf main_arg0
  let main_cst : FVec F S_ .f32 := constant S_ .f32 0x7F800000#32
  let main_v3 : FVec F S50000x64 .f32 := broadcastInDim S50000x64 ![] bcast_S_S50000x64 main_cst
  let main_v4 : IVec S50000x64 1 := cmpf .olt main_v2 main_v3
  let main_c : IVec S_ 1 := constantI S_ 1 1#1
  let main_v5 : IVec S_ 1 := (fun x v => Host.reduce IntOp.andi x v reducesTo_S50000x64_S_d0_1 h_S_) main_v4 main_c
  let main_v6 : FVec F S128x64 .f32 := Host.absf main_arg2
  let main_cst_0 : FVec F S_ .f32 := constant S_ .f32 0x7F800000#32
  let main_v7 : FVec F S128x64 .f32 := broadcastInDim S128x64 ![] bcast_S_S128x64 main_cst_0
  let main_v8 : IVec S128x64 1 := cmpf .olt main_v6 main_v7
  let main_c_1 : IVec S_ 1 := constantI S_ 1 1#1
  let main_v9 : IVec S_ 1 := (fun x v => Host.reduce IntOp.andi x v reducesTo_S128x64_S_d0_1 h_S_) main_v8 main_c_1
  let main_v10 : IVec S_ 1 := andi main_v5 main_v9
  let main_v11 : FVec F S128x64 .f32 := Host.absf main_arg3
  let main_cst_2 : FVec F S_ .f32 := constant S_ .f32 0x7F800000#32
  let main_v12 : FVec F S128x64 .f32 := broadcastInDim S128x64 ![] bcast_S_S128x64 main_cst_2
  let main_v13 : IVec S128x64 1 := cmpf .olt main_v11 main_v12
  let main_c_3 : IVec S_ 1 := constantI S_ 1 1#1
  let main_v14 : IVec S_ 1 := (fun x v => Host.reduce IntOp.andi x v reducesTo_S128x64_S_d0_1 h_S_) main_v13 main_c_3
  let main_v15 : IVec S_ 1 := andi main_v10 main_v14
  let main_v16 : FVec F S128 .f32 := Host.absf main_arg4
  let main_cst_4 : FVec F S_ .f32 := constant S_ .f32 0x7F800000#32
  fn_part1 (F := F) main_arg5 main_arg6 main_arg7 main_v1 main_v15 main_v16 main_cst_4
-- ==== Kernel.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S50000x1 : Shape := ⟨2, ![50000, 1]⟩
abbrev S64x128 : Shape := ⟨2, ![64, 128]⟩
abbrev S1x128 : Shape := ⟨2, ![1, 128]⟩
abbrev S50000x128 : Shape := ⟨2, ![50000, 128]⟩
abbrev S2000x64 : Shape := ⟨2, ![2000, 64]⟩
abbrev S2000x128 : Shape := ⟨2, ![2000, 128]⟩
abbrev S800000x128 : Shape := ⟨2, ![800000, 128]⟩

abbrev nBuf : Space → Nat
  | .hbm => 92
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S1, .i32⟩
  | .hbm, ⟨33, _⟩ => ⟨S_, .i32⟩
  | .hbm, ⟨34, _⟩ => ⟨S800000x1, .i32⟩
  | .hbm, ⟨35, _⟩ => ⟨S800000x1, .i1⟩
  | .hbm, ⟨36, _⟩ => ⟨S1x1, .i32⟩
  | .hbm, ⟨37, _⟩ => ⟨S800000x1, .i32⟩
  | .hbm, ⟨38, _⟩ => ⟨S800000x1, .i1⟩
  | .hbm, ⟨39, _⟩ => ⟨S800000x1, .i1⟩
  | .hbm, ⟨40, _⟩ => ⟨S_, .i1⟩
  | .hbm, ⟨41, _⟩ => ⟨S800000, .i1⟩
  | .hbm, ⟨42, _⟩ => ⟨S800000x64, .f32⟩
  | .hbm, ⟨43, _⟩ => ⟨S800000x64, .i1⟩
  | .hbm, ⟨44, _⟩ => ⟨S_, .f32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S50000x1, .f32⟩
  | .hbm, ⟨52, _⟩ => ⟨S50000x64, .f32⟩
  | .hbm, ⟨53, _⟩ => ⟨S50000x64, .f32⟩
  | .hbm, ⟨54, _⟩ => ⟨S64x128, .f32⟩
  | .hbm, ⟨55, _⟩ => ⟨S64x128, .f32⟩
  | .hbm, ⟨56, _⟩ => ⟨S1x128, .f32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S1, .i32⟩
  | .hbm, ⟨67, _⟩ => ⟨S_, .i32⟩
  | .hbm, ⟨68, _⟩ => ⟨S800000x1, .i32⟩
  | .hbm, ⟨69, _⟩ => ⟨S800000x1, .i1⟩
  | .hbm, ⟨70, _⟩ => ⟨S1x1, .i32⟩
  | .hbm, ⟨71, _⟩ => ⟨S800000x1, .i32⟩
  | .hbm, ⟨72, _⟩ => ⟨S800000x1, .i1⟩
  | .hbm, ⟨73, _⟩ => ⟨S800000x1, .i1⟩
  | .hbm, ⟨74, _⟩ => ⟨S_, .i1⟩
  | .hbm, ⟨75, _⟩ => ⟨S800000, .i1⟩
  | .hbm, ⟨76, _⟩ => ⟨S800000x128, .f32⟩
  | .hbm, ⟨77, _⟩ => ⟨S800000x128, .i1⟩
  | .hbm, ⟨78, _⟩ => ⟨S_, .f32⟩
  | .hbm, ⟨79, _⟩ => ⟨S800000x128, .f32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S50000x1, .f32⟩
  | .hbm, ⟨86, _⟩ => ⟨S50000x128, .f32⟩
  | .hbm, ⟨87, _⟩ => ⟨S50000x128, .f32⟩
  | .hbm, ⟨88, _⟩ => ⟨S128x128, .f32⟩
  | .hbm, ⟨89, _⟩ => ⟨S128x128, .f32⟩
  | .hbm, ⟨90, _⟩ => ⟨S1x128, .f32⟩
  | .hbm, ⟨91, _⟩ => ⟨S50000x128, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v12 : Ref sig .tc := ⟨.hbm, 46, rfl⟩
abbrev main_cst_3 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v23 : Ref sig .tc := ⟨.hbm, 80, rfl⟩
abbrev main_cst_4 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S128x64_S64x128_1_0 : S128x64.Transposes [1, 0] S64x128
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v18) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S64x128 : Shape := ⟨2, ![64, 128]⟩
abbrev S50000x128 : Shape := ⟨2, ![50000, 128]⟩
abbrev S1x128 : Shape := ⟨2, ![1, 128]⟩
abbrev S800000x128 : Shape := ⟨2, ![800000, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S64x128, .f32⟩
  | .hbm, ⟨38, _⟩ => ⟨S50000x128, .f32⟩
  | .hbm, ⟨39, _⟩ => ⟨S64x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x128, .f32⟩
  | .hbm, ⟨74, _⟩ => ⟨S50000x128, .f32⟩
  | .hbm, ⟨75, _⟩ => ⟨S128x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KTerms.lean ====
/- The host side of the kernel's program written as pure terms of the argument arrays: the edge list split into
   sources and destinations, the in-degree and its reciprocal, the wrapped gather with its range mask, the two
   scatter-add aggregations and their means, the transposed weights and the bias as a row.  Each name is the term
   the host operations of the program compose for the buffer it stands for, so that reading a buffer after a stretch
   of host operations gives exactly one of these names applied to the arguments. -/
import proofs.«413053_j40587440947286_1_alg».proof.Proof.Gen.KernelIdeal
import Idealize.ShloMosaic.Lib.ValueIdx

noncomputable section

namespace Cert.KernelIdeal.T

open Cert.KernelIdeal Cert.KernelIdeal.Gen Idealize.ShloMosaic

variable {F : FTy → Type} [FloatOps F]

/-- Row 0 of the edge list: the source node of every edge. -/
def src (x1 : IVec S2x800000 32) : IVec S800000 32 :=
  shapeCast _ (extractStridedSlice S1x800000 ![0, 0] x1 slices_S2x800000_S1x800000_0_0) shapeCasts_S1x800000_S800000

/-- Row 1 of the edge list: the destination node of every edge. -/
def dst (x1 : IVec S2x800000 32) : IVec S800000 32 :=
  shapeCast _ (extractStridedSlice S1x800000 ![1, 0] x1 slices_S2x800000_S1x800000_1_0) shapeCasts_S1x800000_S800000

/-- The destinations as a column of scatter indices. -/
def dstb (x1 : IVec S2x800000 32) : IVec S800000x1 32 :=
  broadcastInDim S800000x1 ![0] bcast_S800000_S800000x1_0 (dst x1)

/-- The in-degree of every node: a one scattered to each edge's destination. -/
def deg (x1 : IVec S2x800000 32) : FVec F S50000 .f32 :=
  Host.scatterAdd scatter_S50000_S800000x1_S800000_n_0_0_1 (broadcastInDim S50000 ![] bcast_S_S50000 (constant S_ .f32 0x00000000#32)) (dstb x1) (broadcastInDim S800000 ![] bcast_S_S800000 (constant S_ .f32 0x3F800000#32))

/-- The in-degree raised to at least one. -/
def dmax (x1 : IVec S2x800000 32) : FVec F S50000 .f32 :=
  maximumf (deg (F := F) x1) (broadcastInDim S50000 ![] bcast_S_S50000 (constant S_ .f32 0x3F800000#32))

/-- One over the raised in-degree. -/
def inv (x1 : IVec S2x800000 32) : FVec F S50000 .f32 :=
  Host.divf (broadcastInDim S50000 ![] bcast_S_S50000 (constant S_ .f32 0x3F800000#32)) (dmax (F := F) x1)

/-- The sources with a negative id wrapped once by the number of nodes, as a column of gather indices. -/
def widx (x1 : IVec S2x800000 32) : IVec S800000x1 32 :=
  broadcastInDim S800000x1 ![0] bcast_S800000_S800000x1_0
    (select (cmpi .slt (src x1) (broadcastInDim S800000 ![] bcast_S_S800000 (constantI S_ 32 0#32)))
      (addi (src x1) (broadcastInDim S800000 ![] bcast_S_S800000 (constantI S_ 32 50000#32))) (src x1))

/-- Per edge: is the wrapped source a valid row, 0 ≤ id ≤ 49999. -/
def mask (x1 : IVec S2x800000 32) : IVec S800000 1 :=
  Host.reduce IntOp.andi
    (andi (cmpi .sge (widx x1) (broadcastInDim S800000x1 ![] bcast_S_S800000x1 (constantI S_ 32 0#32)))
      (cmpi .sle (widx x1) (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The gathered source rows of a 64-column table, a filler row where the wrapped id is out of range. -/
def take64 (x0 : FVec F S50000x64 .f32) (x1 : IVec S2x800000 32) : FVec F S800000x64 .f32 :=
  select (broadcastInDim S800000x64 ![0] bcast_S800000_S800000x64_0 (mask x1))
    (Host.gather gather_S50000x64_S800000x1_S800000x64_1_0_n_n_0_1_164 x0 (widx x1))
    (broadcastInDim S800000x64 ![] bcast_S_S800000x64 (constant S_ .f32 0x7FC00000#32))

/-- The gathered source rows of a 128-column table, a filler row where the wrapped id is out of range. -/
def take128 (h : FVec F S50000x128 .f32) (x1 : IVec S2x800000 32) : FVec F S800000x128 .f32 :=
  select (broadcastInDim S800000x128 ![0] bcast_S800000_S800000x128_0 (mask x1))
    (Host.gather gather_S50000x128_S800000x1_S800000x128_1_0_n_n_0_1_1128 h (widx x1))
    (broadcastInDim S800000x128 ![] bcast_S_S800000x128 (constant S_ .f32 0x7FC00000#32))

/-- Messages summed into their destinations (64 columns), from given messages. -/
def scat64 (x1 : IVec S2x800000 32) (msg : FVec F S800000x64 .f32) : FVec F S50000x64 .f32 :=
  Host.scatterAdd scatter_S50000x64_S800000x1_S800000x64_1_0_0_1 (broadcastInDim S50000x64 ![] bcast_S_S50000x64 (constant S_ .f32 0x00000000#32)) (dstb x1) msg

/-- Messages summed into their destinations (128 columns), from given messages. -/
def scat128 (x1 : IVec S2x800000 32) (msg : FVec F S800000x128 .f32) : FVec F S50000x128 .f32 :=
  Host.scatterAdd scatter_S50000x128_S800000x1_S800000x128_1_0_0_1 (broadcastInDim S50000x128 ![] bcast_S_S50000x128 (constant S_ .f32 0x00000000#32)) (dstb x1) msg

/-- The reciprocal degree spread over 64 columns. -/
def invb64 (x1 : IVec S2x800000 32) : FVec F S50000x64 .f32 :=
  broadcastInDim S50000x64 ![0, 1] bcast_S50000x1_S50000x64_0_1 (broadcastInDim S50000x1 ![0] bcast_S50000_S50000x1_0 (inv (F := F) x1))

/-- The reciprocal degree spread over 128 columns. -/
def invb128 (x1 : IVec S2x800000 32) : FVec F S50000x128 .f32 :=
  broadcastInDim S50000x128 ![0, 1] bcast_S50000x1_S50000x128_0_1 (broadcastInDim S50000x1 ![0] bcast_S50000_S50000x1_0 (inv (F := F) x1))

/-- The first layer's neighbour mean: aggregated source rows times the reciprocal degree. -/
def mean64 (x0 : FVec F S50000x64 .f32) (x1 : IVec S2x800000 32) : FVec F S50000x64 .f32 :=
  mulf (scat64 x1 (take64 x0 x1)) (invb64 (F := F) x1)

/-- The second layer's neighbour mean, of a 128-column table `h`. -/
def mean128 (h : FVec F S50000x128 .f32) (x1 : IVec S2x800000 32) : FVec F S50000x128 .f32 :=
  mulf (scat128 x1 (take128 h x1)) (invb128 (F := F) x1)

/-- A first-layer weight transposed to (in, out). -/
def tr64 (w : FVec F S128x64 .f32) : FVec F S64x128 .f32 := transpose S64x128 [1, 0] w transposes_S128x64_S64x128_1_0

/-- A second-layer weight transposed to (in, out). -/
def tr128 (w : FVec F S128x128 .f32) : FVec F S128x128 .f32 := transpose S128x128 [1, 0] w transposes_S128x128_S128x128_1_0

/-- A bias as a one-row matrix. -/
def row (b : FVec F S128 .f32) : FVec F S1x128 .f32 := shapeCast _ b shapeCasts_S128_S1x128

end Cert.KernelIdeal.T

end
-- ==== Proof.KHost.lean ====
/- What the kernel program's buffers hold when each of its two pipelined regions is entered, and what the last
   region leaves in the result buffer: every array a window stages is one of the named host terms of the argument
   arrays (the second region's root table being what the first region's pipeline left in its output array). -/
import proofs.«413053_j40587440947286_1_alg».proof.Proof.Gen.KernelIdeal.Frame
import proofs.«413053_j40587440947286_1_alg».proof.Proof.KTerms

set_option maxRecDepth 16384

noncomputable section

namespace Cert.KernelIdeal.KHost

open Cert.KernelIdeal Cert.KernelIdeal.Gen Idealize.ShloMosaic Idealize.ShloMosaic.TcCoe Idealize.SL.Sem
open Idealize.ShloMosaic.Pipeline (Dat Cfg)

/-! ## One stretch of host operations at a time, from arbitrary contents

Each stretch is read from contents `V` that stay a variable: what a buffer the stretch writes holds afterwards is
the composition of the operations that feed it, applied to `V` at the buffers the stretch only reads; a buffer the
stretch does not write holds what it held. -/

section Stretch

/-- Contents moved to a typed reference's buffer and back are the contents. -/
private theorem ofBuf_toBuf {T : BufTy} (x : StableHlo.TRef sig T) (v : T.Contents (Elt Ideal)) :
    x.ofBuf (Val := Elt Ideal) (x.toBuf v) = v := by
  cases x; subst_vars; rfl

variable (V : Valuation τ sig (Elt Ideal))

/-! ### The first stretch: sources, destinations, the reciprocal in-degree -/

private theorem s0_v1 :
    StableHlo.after (hostOps0 (F := Ideal)) V (Proc.devRef .tc main_v1) = T.src (V (Proc.devRef .tc main_arg1)) := by
  after_results <;> rfl
private theorem s0_v3 :
    StableHlo.after (hostOps0 (F := Ideal)) V (Proc.devRef .tc main_v3) = T.dst (V (Proc.devRef .tc main_arg1)) := by
  after_results <;> rfl
private theorem s0_v11 :
    StableHlo.after (hostOps0 (F := Ideal)) V (Proc.devRef .tc main_v11) = T.inv (F := Ideal) (V (Proc.devRef .tc main_arg1)) := by
  after_results <;> rfl
private theorem s0_arg0 : StableHlo.after (hostOps0 (F := Ideal)) V (Proc.devRef .tc main_arg0) = V (Proc.devRef .tc main_arg0) := by
  after_results
private theorem s0_arg1 : StableHlo.after (hostOps0 (F := Ideal)) V (Proc.devRef .tc main_arg1) = V (Proc.devRef .tc main_arg1) := by
  after_results
private theorem s0_arg2 : StableHlo.after (hostOps0 (F := Ideal)) V (Proc.devRef .tc main_arg2) = V (Proc.devRef .tc main_arg2) := by
  after_results
private theorem s0_arg3 : StableHlo.after (hostOps0 (F := Ideal)) V (Proc.devRef .tc main_arg3) = V (Proc.devRef .tc main_arg3) := by
  after_results
private theorem s0_arg4 : StableHlo.after (hostOps0 (F := Ideal)) V (Proc.devRef .tc main_arg4) = V (Proc.devRef .tc main_arg4) := by
  after_results
private theorem s0_arg5 : StableHlo.after (hostOps0 (F := Ideal)) V (Proc.devRef .tc main_arg5) = V (Proc.devRef .tc main_arg5) := by
  after_results
private theorem s0_arg6 : StableHlo.after (hostOps0 (F := Ideal)) V (Proc.devRef .tc main_arg6) = V (Proc.devRef .tc main_arg6) := by
  after_results
private theorem s0_arg7 : StableHlo.after (hostOps0 (F := Ideal)) V (Proc.devRef .tc main_arg7) = V (Proc.devRef .tc main_arg7) := by
  after_results

/-! ### The second stretch: the gathered source rows of the node table -/

/-- With the sources in their buffer, the stretch leaves the masked gather of the node table's rows. -/
private theorem s01_v12 (h1 : V (Proc.devRef .tc main_v1) = T.src (V (Proc.devRef .tc main_arg1))) :
    StableHlo.after (hostOps0_1 (F := Ideal)) V (Proc.devRef .tc main_v12)
      = T.take64 (F := Ideal) (V (Proc.devRef .tc main_arg0)) (V (Proc.devRef .tc main_arg1)) := by
  have e1 : (StableHlo.TRef.of main_v1 : StableHlo.TRef sig ⟨S800000, .i32⟩).ofBuf (Val := Elt Ideal) (V (Proc.devRef .tc main_v1))
      = T.src (V (Proc.devRef .tc main_arg1)) := h1
  have e0 : (StableHlo.TRef.of main_arg0 : StableHlo.TRef sig ⟨S50000x64, .f32⟩).ofBuf (Val := Elt Ideal) (V (Proc.devRef .tc main_arg0))
      = V (Proc.devRef .tc main_arg0) := rfl
  after_results_simp
  simp only [ofBuf_toBuf, e1, e0]
  refine eq_of_heq ((cast_heq _ _).trans (heq_of_eq ?_))
  rfl
private theorem s01_arg0 : StableHlo.after (hostOps0_1 (F := Ideal)) V (Proc.devRef .tc main_arg0) = V (Proc.devRef .tc main_arg0) := by
  after_results_simp
private theorem s01_arg1 : StableHlo.after (hostOps0_1 (F := Ideal)) V (Proc.devRef .tc main_arg1) = V (Proc.devRef .tc main_arg1) := by
  after_results_simp
private theorem s01_arg2 : StableHlo.after (hostOps0_1 (F := Ideal)) V (Proc.devRef .tc main_arg2) = V (Proc.devRef .tc main_arg2) := by
  after_results_simp
private theorem s01_arg3 : StableHlo.after (hostOps0_1 (F := Ideal)) V (Proc.devRef .tc main_arg3) = V (Proc.devRef .tc main_arg3) := by
  after_results_simp
private theorem s01_arg4 : StableHlo.after (hostOps0_1 (F := Ideal)) V (Proc.devRef .tc main_arg4) = V (Proc.devRef .tc main_arg4) := by
  after_results_simp
private theorem s01_arg5 : StableHlo.after (hostOps0_1 (F := Ideal)) V (Proc.devRef .tc main_arg5) = V (Proc.devRef .tc main_arg5) := by
  after_results_simp
private theorem s01_arg6 : StableHlo.after (hostOps0_1 (F := Ideal)) V (Proc.devRef .tc main_arg6) = V (Proc.devRef .tc main_arg6) := by
  after_results_simp
private theorem s01_arg7 : StableHlo.after (hostOps0_1 (F := Ideal)) V (Proc.devRef .tc main_arg7) = V (Proc.devRef .tc main_arg7) := by
  after_results_simp
private theorem s01_v1 : StableHlo.after (hostOps0_1 (F := Ideal)) V (Proc.devRef .tc main_v1) = V (Proc.devRef .tc main_v1) := by
  after_results_simp
private theorem s01_v3 : StableHlo.after (hostOps0_1 (F := Ideal)) V (Proc.devRef .tc main_v3) = V (Proc.devRef .tc main_v3) := by
  after_results_simp
private theorem s01_v11 : StableHlo.after (hostOps0_1 (F := Ideal)) V (Proc.devRef .tc main_v11) = V (Proc.devRef .tc main_v11) := by
  after_results_simp

/-! ### The third stretch: the first layer's neighbour mean, the transposed weights, the bias row -/

private theorem s02_v18 :
    StableHlo.after (hostOps0_2 (F := Ideal)) V (Proc.devRef .tc main_v18)
      = mulf (Host.scatterAdd (F := Ideal) scatter_S50000x64_S800000x1_S800000x64_1_0_0_1
            (broadcastInDim S50000x64 ![] bcast_S_S50000x64 (constant (F := Ideal) S_ .f32 0x00000000#32))
            (broadcastInDim S800000x1 ![0] bcast_S800000_S800000x1_0 (V (Proc.devRef .tc main_v3)))
            (V (Proc.devRef .tc main_v12)))
          (broadcastInDim S50000x64 ![0, 1] bcast_S50000x1_S50000x64_0_1
            (broadcastInDim S50000x1 ![0] bcast_S50000_S50000x1_0 (V (Proc.devRef .tc main_v11)))) := by
  after_results <;> rfl
private theorem s02_v19 :
    StableHlo.after (hostOps0_2 (F := Ideal)) V (Proc.devRef .tc main_v19) = T.tr64 (F := Ideal) (V (Proc.devRef .tc main_arg2)) := by
  after_results <;> rfl
private theorem s02_v20 :
    StableHlo.after (hostOps0_2 (F := Ideal)) V (Proc.devRef .tc main_v20) = T.tr64 (F := Ideal) (V (Proc.devRef .tc main_arg3)) := by
  after_results <;> rfl
private theorem s02_v21 :
    StableHlo.after (hostOps0_2 (F := Ideal)) V (Proc.devRef .tc main_v21) = T.row (F := Ideal) (V (Proc.devRef .tc main_arg4)) := by
  after_results <;> rfl
private theorem s02_arg0 : StableHlo.after (hostOps0_2 (F := Ideal)) V (Proc.devRef .tc main_arg0) = V (Proc.devRef .tc main_arg0) := by
  after_results
private theorem s02_arg1 : StableHlo.after (hostOps0_2 (F := Ideal)) V (Proc.devRef .tc main_arg1) = V (Proc.devRef .tc main_arg1) := by
  after_results
private theorem s02_arg5 : StableHlo.after (hostOps0_2 (F := Ideal)) V (Proc.devRef .tc main_arg5) = V (Proc.devRef .tc main_arg5) := by
  after_results
private theorem s02_arg6 : StableHlo.after (hostOps0_2 (F := Ideal)) V (Proc.devRef .tc main_arg6) = V (Proc.devRef .tc main_arg6) := by
  after_results
private theorem s02_arg7 : StableHlo.after (hostOps0_2 (F := Ideal)) V (Proc.devRef .tc main_arg7) = V (Proc.devRef .tc main_arg7) := by
  after_results
private theorem s02_v1 : StableHlo.after (hostOps0_2 (F := Ideal)) V (Proc.devRef .tc main_v1) = V (Proc.devRef .tc main_v1) := by
  after_results
private theorem s02_v3 : StableHlo.after (hostOps0_2 (F := Ideal)) V (Proc.devRef .tc main_v3) = V (Proc.devRef .tc main_v3) := by
  after_results
private theorem s02_v11 : StableHlo.after (hostOps0_2 (F := Ideal)) V (Proc.devRef .tc main_v11) = V (Proc.devRef .tc main_v11) := by
  after_results

/-! ### The fourth stretch: the gathered source rows of the hidden table -/

/-- With the sources in their buffer, the stretch leaves the masked gather of the hidden table's rows. -/
private theorem s1_v23 (h1 : V (Proc.devRef .tc main_v1) = T.src (V (Proc.devRef .tc main_arg1))) :
    StableHlo.after (hostOps1 (F := Ideal)) V (Proc.devRef .tc main_v23)
      = T.take128 (F := Ideal) (V (Proc.devRef .tc main_v22)) (V (Proc.devRef .tc main_arg1)) := by
  have e1 : (StableHlo.TRef.of main_v1 : StableHlo.TRef sig ⟨S800000, .i32⟩).ofBuf (Val := Elt Ideal) (V (Proc.devRef .tc main_v1))
      = T.src (V (Proc.devRef .tc main_arg1)) := h1
  have e0 : (StableHlo.TRef.of main_v22 : StableHlo.TRef sig ⟨S50000x128, .f32⟩).ofBuf (Val := Elt Ideal) (V (Proc.devRef .tc main_v22))
      = V (Proc.devRef .tc main_v22) := rfl
  after_results_simp
  simp only [ofBuf_toBuf, e1, e0]
  refine eq_of_heq ((cast_heq _ _).trans (heq_of_eq ?_))
  rfl
private theorem s1_arg5 : StableHlo.after (hostOps1 (F := Ideal)) V (Proc.devRef .tc main_arg5) = V (Proc.devRef .tc main_arg5) := by
  after_results_simp
private theorem s1_arg6 : StableHlo.after (hostOps1 (F := Ideal)) V (Proc.devRef .tc main_arg6) = V (Proc.devRef .tc main_arg6) := by
  after_results_simp
private theorem s1_arg7 : StableHlo.after (hostOps1 (F := Ideal)) V (Proc.devRef .tc main_arg7) = V (Proc.devRef .tc main_arg7) := by
  after_results_simp
private theorem s1_v3 : StableHlo.after (hostOps1 (F := Ideal)) V (Proc.devRef .tc main_v3) = V (Proc.devRef .tc main_v3) := by
  after_results_simp
private theorem s1_v11 : StableHlo.after (hostOps1 (F := Ideal)) V (Proc.devRef .tc main_v11) = V (Proc.devRef .tc main_v11) := by
  after_results_simp
private theorem s1_v22 : StableHlo.after (hostOps1 (F := Ideal)) V (Proc.devRef .tc main_v22) = V (Proc.devRef .tc main_v22) := by
  after_results_simp

/-! ### The fifth stretch: the second layer's neighbour mean, the transposed weights, the bias row -/

private theorem s11_v29 :
    StableHlo.after (hostOps1_1 (F := Ideal)) V (Proc.devRef .tc main_v29)
      = mulf (Host.scatterAdd (F := Ideal) scatter_S50000x128_S800000x1_S800000x128_1_0_0_1
            (broadcastInDim S50000x128 ![] bcast_S_S50000x128 (constant (F := Ideal) S_ .f32 0x00000000#32))
            (broadcastInDim S800000x1 ![0] bcast_S800000_S800000x1_0 (V (Proc.devRef .tc main_v3)))
            (V (Proc.devRef .tc main_v23)))
          (broadcastInDim S50000x128 ![0, 1] bcast_S50000x1_S50000x128_0_1
            (broadcastInDim S50000x1 ![0] bcast_S50000_S50000x1_0 (V (Proc.devRef .tc main_v11)))) := by
  after_results <;> rfl
private theorem s11_v30 :
    StableHlo.after (hostOps1_1 (F := Ideal)) V (Proc.devRef .tc main_v30) = T.tr128 (F := Ideal) (V (Proc.devRef .tc main_arg5)) := by
  after_results <;> rfl
private theorem s11_v31 :
    StableHlo.after (hostOps1_1 (F := Ideal)) V (Proc.devRef .tc main_v31) = T.tr128 (F := Ideal) (V (Proc.devRef .tc main_arg6)) := by
  after_results <;> rfl
private theorem s11_v32 :
    StableHlo.after (hostOps1_1 (F := Ideal)) V (Proc.devRef .tc main_v32) = T.row (F := Ideal) (V (Proc.devRef .tc main_arg7)) := by
  after_results <;> rfl
private theorem s11_v22 : StableHlo.after (hostOps1_1 (F := Ideal)) V (Proc.devRef .tc main_v22) = V (Proc.devRef .tc main_v22) := by
  after_results

end Stretch

variable (m : (ℓ : Loc nD τ sig) → Buf (Elt Ideal) ℓ) (ρ : Dev nD → PrngReg)

/-- The first region's output array when its pipeline has run: the hidden table. -/
abbrev hid (c : Dev nD) : FVec Ideal S50000x128 .f32 := (dat0 (F := Ideal) (V3 m ρ) c).arrAt 5 cfg0.N

/-! ## The fold, buffer by buffer

At launch a buffer of core `c` holds the launch memory's contents; each stretch and each region then changes only
what it writes, so every buffer read below walks back to the argument arrays. -/

/-! ### After the first stretch -/
private theorem W1_arg0 (c : Dev nD) : W1 m ρ c (Proc.devRef .tc main_arg0) = m ((c : Thread nD τ).loc main_arg0) := s0_arg0 (W0 m ρ c)
private theorem W1_arg1 (c : Dev nD) : W1 m ρ c (Proc.devRef .tc main_arg1) = m ((c : Thread nD τ).loc main_arg1) := s0_arg1 (W0 m ρ c)
private theorem W1_arg2 (c : Dev nD) : W1 m ρ c (Proc.devRef .tc main_arg2) = m ((c : Thread nD τ).loc main_arg2) := s0_arg2 (W0 m ρ c)
private theorem W1_arg3 (c : Dev nD) : W1 m ρ c (Proc.devRef .tc main_arg3) = m ((c : Thread nD τ).loc main_arg3) := s0_arg3 (W0 m ρ c)
private theorem W1_arg4 (c : Dev nD) : W1 m ρ c (Proc.devRef .tc main_arg4) = m ((c : Thread nD τ).loc main_arg4) := s0_arg4 (W0 m ρ c)
private theorem W1_arg5 (c : Dev nD) : W1 m ρ c (Proc.devRef .tc main_arg5) = m ((c : Thread nD τ).loc main_arg5) := s0_arg5 (W0 m ρ c)
private theorem W1_arg6 (c : Dev nD) : W1 m ρ c (Proc.devRef .tc main_arg6) = m ((c : Thread nD τ).loc main_arg6) := s0_arg6 (W0 m ρ c)
private theorem W1_arg7 (c : Dev nD) : W1 m ρ c (Proc.devRef .tc main_arg7) = m ((c : Thread nD τ).loc main_arg7) := s0_arg7 (W0 m ρ c)
private theorem W1_v1 (c : Dev nD) : W1 m ρ c (Proc.devRef .tc main_v1) = T.src (m ((c : Thread nD τ).loc main_arg1)) := s0_v1 (W0 m ρ c)
private theorem W1_v3 (c : Dev nD) : W1 m ρ c (Proc.devRef .tc main_v3) = T.dst (m ((c : Thread nD τ).loc main_arg1)) := s0_v3 (W0 m ρ c)
private theorem W1_v11 (c : Dev nD) : W1 m ρ c (Proc.devRef .tc main_v11) = T.inv (F := Ideal) (m ((c : Thread nD τ).loc main_arg1)) := s0_v11 (W0 m ρ c)

/-! ### After the second stretch -/
private theorem W2_arg0 (c : Dev nD) : W2 m ρ c (Proc.devRef .tc main_arg0) = m ((c : Thread nD τ).loc main_arg0) := (s01_arg0 (W1 m ρ c)).trans (W1_arg0 m ρ c)
private theorem W2_arg1 (c : Dev nD) : W2 m ρ c (Proc.devRef .tc main_arg1) = m ((c : Thread nD τ).loc main_arg1) := (s01_arg1 (W1 m ρ c)).trans (W1_arg1 m ρ c)
private theorem W2_arg2 (c : Dev nD) : W2 m ρ c (Proc.devRef .tc main_arg2) = m ((c : Thread nD τ).loc main_arg2) := (s01_arg2 (W1 m ρ c)).trans (W1_arg2 m ρ c)
private theorem W2_arg3 (c : Dev nD) : W2 m ρ c (Proc.devRef .tc main_arg3) = m ((c : Thread nD τ).loc main_arg3) := (s01_arg3 (W1 m ρ c)).trans (W1_arg3 m ρ c)
private theorem W2_arg4 (c : Dev nD) : W2 m ρ c (Proc.devRef .tc main_arg4) = m ((c : Thread nD τ).loc main_arg4) := (s01_arg4 (W1 m ρ c)).trans (W1_arg4 m ρ c)
private theorem W2_arg5 (c : Dev nD) : W2 m ρ c (Proc.devRef .tc main_arg5) = m ((c : Thread nD τ).loc main_arg5) := (s01_arg5 (W1 m ρ c)).trans (W1_arg5 m ρ c)
private theorem W2_arg6 (c : Dev nD) : W2 m ρ c (Proc.devRef .tc main_arg6) = m ((c : Thread nD τ).loc main_arg6) := (s01_arg6 (W1 m ρ c)).trans (W1_arg6 m ρ c)
private theorem W2_arg7 (c : Dev nD) : W2 m ρ c (Proc.devRef .tc main_arg7) = m ((c : Thread nD τ).loc main_arg7) := (s01_arg7 (W1 m ρ c)).trans (W1_arg7 m ρ c)
private theorem W2_v1 (c : Dev nD) : W2 m ρ c (Proc.devRef .tc main_v1) = T.src (m ((c : Thread nD τ).loc main_arg1)) := (s01_v1 (W1 m ρ c)).trans (W1_v1 m ρ c)
private theorem W2_v3 (c : Dev nD) : W2 m ρ c (Proc.devRef .tc main_v3) = T.dst (m ((c : Thread nD τ).loc main_arg1)) := (s01_v3 (W1 m ρ c)).trans (W1_v3 m ρ c)
private theorem W2_v11 (c : Dev nD) : W2 m ρ c (Proc.devRef .tc main_v11) = T.inv (F := Ideal) (m ((c : Thread nD τ).loc main_arg1)) := (s01_v11 (W1 m ρ c)).trans (W1_v11 m ρ c)
private theorem W2_v12 (c : Dev nD) :
    W2 m ρ c (Proc.devRef .tc main_v12) = T.take64 (F := Ideal) (m ((c : Thread nD τ).loc main_arg0)) (m ((c : Thread nD τ).loc main_arg1)) := by
  have h := s01_v12 (W1 m ρ c) ((W1_v1 m ρ c).trans (congrArg T.src (W1_arg1 m ρ c).symm))
  rw [W1_arg0 m ρ c, W1_arg1 m ρ c] at h
  exact h

/-! ### After the third stretch: region 0's entry -/
private theorem W3_arg0 (c : Dev nD) : W3 m ρ c (Proc.devRef .tc main_arg0) = m ((c : Thread nD τ).loc main_arg0) := (s02_arg0 (W2 m ρ c)).trans (W2_arg0 m ρ c)
private theorem W3_arg1 (c : Dev nD) : W3 m ρ c (Proc.devRef .tc main_arg1) = m ((c : Thread nD τ).loc main_arg1) := (s02_arg1 (W2 m ρ c)).trans (W2_arg1 m ρ c)
private theorem W3_arg5 (c : Dev nD) : W3 m ρ c (Proc.devRef .tc main_arg5) = m ((c : Thread nD τ).loc main_arg5) := (s02_arg5 (W2 m ρ c)).trans (W2_arg5 m ρ c)
private theorem W3_arg6 (c : Dev nD) : W3 m ρ c (Proc.devRef .tc main_arg6) = m ((c : Thread nD τ).loc main_arg6) := (s02_arg6 (W2 m ρ c)).trans (W2_arg6 m ρ c)
private theorem W3_arg7 (c : Dev nD) : W3 m ρ c (Proc.devRef .tc main_arg7) = m ((c : Thread nD τ).loc main_arg7) := (s02_arg7 (W2 m ρ c)).trans (W2_arg7 m ρ c)
private theorem W3_v1 (c : Dev nD) : W3 m ρ c (Proc.devRef .tc main_v1) = T.src (m ((c : Thread nD τ).loc main_arg1)) := (s02_v1 (W2 m ρ c)).trans (W2_v1 m ρ c)
private theorem W3_v3 (c : Dev nD) : W3 m ρ c (Proc.devRef .tc main_v3) = T.dst (m ((c : Thread nD τ).loc main_arg1)) := (s02_v3 (W2 m ρ c)).trans (W2_v3 m ρ c)
private theorem W3_v11 (c : Dev nD) : W3 m ρ c (Proc.devRef .tc main_v11) = T.inv (F := Ideal) (m ((c : Thread nD τ).loc main_arg1)) := (s02_v11 (W2 m ρ c)).trans (W2_v11 m ρ c)

/-! ## Region 0's five input arrays at its entry -/
theorem V3_v18 (c : Dev nD) : V3 m ρ c main_v18 = T.mean64 (F := Ideal) (m ((c : Thread nD τ).loc main_arg0)) (m ((c : Thread nD τ).loc main_arg1)) := by
  refine (s02_v18 (W2 m ρ c)).trans ?_
  rw [W2_v3 m ρ c, W2_v12 m ρ c, W2_v11 m ρ c]
  rfl
theorem V3_arg0 (c : Dev nD) : V3 m ρ c main_arg0 = m ((c : Thread nD τ).loc main_arg0) := W3_arg0 m ρ c
theorem V3_v19 (c : Dev nD) : V3 m ρ c main_v19 = T.tr64 (F := Ideal) (m ((c : Thread nD τ).loc main_arg2)) :=
  (s02_v19 (W2 m ρ c)).trans (congrArg (T.tr64 (F := Ideal)) (W2_arg2 m ρ c))
theorem V3_v20 (c : Dev nD) : V3 m ρ c main_v20 = T.tr64 (F := Ideal) (m ((c : Thread nD τ).loc main_arg3)) :=
  (s02_v20 (W2 m ρ c)).trans (congrArg (T.tr64 (F := Ideal)) (W2_arg3 m ρ c))
theorem V3_v21 (c : Dev nD) : V3 m ρ c main_v21 = T.row (F := Ideal) (m ((c : Thread nD τ).loc main_arg4)) :=
  (s02_v21 (W2 m ρ c)).trans (congrArg (T.row (F := Ideal)) (W2_arg4 m ρ c))

/-! ### Across region 0: its output array holds the hidden table, a buffer that is none of its arrays is as entered -/
private theorem W4_arg1 (c : Dev nD) : W4 m ρ c (Proc.devRef .tc main_arg1) = m ((c : Thread nD τ).loc main_arg1) := (W4_of_ne m ρ c main_arg1 (by decide)).trans (W3_arg1 m ρ c)
private theorem W4_arg5 (c : Dev nD) : W4 m ρ c (Proc.devRef .tc main_arg5) = m ((c : Thread nD τ).loc main_arg5) := (W4_of_ne m ρ c main_arg5 (by decide)).trans (W3_arg5 m ρ c)
private theorem W4_arg6 (c : Dev nD) : W4 m ρ c (Proc.devRef .tc main_arg6) = m ((c : Thread nD τ).loc main_arg6) := (W4_of_ne m ρ c main_arg6 (by decide)).trans (W3_arg6 m ρ c)
private theorem W4_arg7 (c : Dev nD) : W4 m ρ c (Proc.devRef .tc main_arg7) = m ((c : Thread nD τ).loc main_arg7) := (W4_of_ne m ρ c main_arg7 (by decide)).trans (W3_arg7 m ρ c)
private theorem W4_v1 (c : Dev nD) : W4 m ρ c (Proc.devRef .tc main_v1) = T.src (m ((c : Thread nD τ).loc main_arg1)) := (W4_of_ne m ρ c main_v1 (by decide)).trans (W3_v1 m ρ c)
private theorem W4_v3 (c : Dev nD) : W4 m ρ c (Proc.devRef .tc main_v3) = T.dst (m ((c : Thread nD τ).loc main_arg1)) := (W4_of_ne m ρ c main_v3 (by decide)).trans (W3_v3 m ρ c)
private theorem W4_v11 (c : Dev nD) : W4 m ρ c (Proc.devRef .tc main_v11) = T.inv (F := Ideal) (m ((c : Thread nD τ).loc main_arg1)) := (W4_of_ne m ρ c main_v11 (by decide)).trans (W3_v11 m ρ c)
private theorem W4_v22 (c : Dev nD) : W4 m ρ c (Proc.devRef .tc main_v22) = hid m ρ c := W4_arr m ρ c 5

/-! ### After the fourth stretch -/
private theorem W5_arg5 (c : Dev nD) : W5 m ρ c (Proc.devRef .tc main_arg5) = m ((c : Thread nD τ).loc main_arg5) := (s1_arg5 (W4 m ρ c)).trans (W4_arg5 m ρ c)
private theorem W5_arg6 (c : Dev nD) : W5 m ρ c (Proc.devRef .tc main_arg6) = m ((c : Thread nD τ).loc main_arg6) := (s1_arg6 (W4 m ρ c)).trans (W4_arg6 m ρ c)
private theorem W5_arg7 (c : Dev nD) : W5 m ρ c (Proc.devRef .tc main_arg7) = m ((c : Thread nD τ).loc main_arg7) := (s1_arg7 (W4 m ρ c)).trans (W4_arg7 m ρ c)
private theorem W5_v3 (c : Dev nD) : W5 m ρ c (Proc.devRef .tc main_v3) = T.dst (m ((c : Thread nD τ).loc main_arg1)) := (s1_v3 (W4 m ρ c)).trans (W4_v3 m ρ c)
private theorem W5_v11 (c : Dev nD) : W5 m ρ c (Proc.devRef .tc main_v11) = T.inv (F := Ideal) (m ((c : Thread nD τ).loc main_arg1)) := (s1_v11 (W4 m ρ c)).trans (W4_v11 m ρ c)
private theorem W5_v22 (c : Dev nD) : W5 m ρ c (Proc.devRef .tc main_v22) = hid m ρ c := (s1_v22 (W4 m ρ c)).trans (W4_v22 m ρ c)
private theorem W5_v23 (c : Dev nD) :
    W5 m ρ c (Proc.devRef .tc main_v23) = T.take128 (F := Ideal) (hid m ρ c) (m ((c : Thread nD τ).loc main_arg1)) := by
  have h := s1_v23 (W4 m ρ c) ((W4_v1 m ρ c).trans (congrArg T.src (W4_arg1 m ρ c).symm))
  rw [W4_v22 m ρ c, W4_arg1 m ρ c] at h
  exact h

/-! ## Region 1's five input arrays at its entry -/
theorem V6_v29 (c : Dev nD) : V6 m ρ c main_v29 = T.mean128 (F := Ideal) (hid m ρ c) (m ((c : Thread nD τ).loc main_arg1)) := by
  refine (s11_v29 (W5 m ρ c)).trans ?_
  rw [W5_v3 m ρ c, W5_v23 m ρ c, W5_v11 m ρ c]
  rfl
theorem V6_v22 (c : Dev nD) : V6 m ρ c main_v22 = hid m ρ c := (s11_v22 (W5 m ρ c)).trans (W5_v22 m ρ c)
theorem V6_v30 (c : Dev nD) : V6 m ρ c main_v30 = T.tr128 (F := Ideal) (m ((c : Thread nD τ).loc main_arg5)) :=
  (s11_v30 (W5 m ρ c)).trans (congrArg (T.tr128 (F := Ideal)) (W5_arg5 m ρ c))
theorem V6_v31 (c : Dev nD) : V6 m ρ c main_v31 = T.tr128 (F := Ideal) (m ((c : Thread nD τ).loc main_arg6)) :=
  (s11_v31 (W5 m ρ c)).trans (congrArg (T.tr128 (F := Ideal)) (W5_arg6 m ρ c))
theorem V6_v32 (c : Dev nD) : V6 m ρ c main_v32 = T.row (F := Ideal) (m ((c : Thread nD τ).loc main_arg7)) :=
  (s11_v32 (W5 m ρ c)).trans (congrArg (T.row (F := Ideal)) (W5_arg7 m ρ c))

/-! ## The result buffer at the end -/
theorem W7_v33 (c : Dev nD) : W7 m ρ c (Proc.devRef .tc main_v33) = (dat1 (F := Ideal) (V6 m ρ) c).arrAt 5 cfg1.N :=
  W7_arr m ρ c 5

end Cert.KernelIdeal.KHost

end
-- ==== Proof.Pay0.lean ====
/- The first dense stage's body as arithmetic at one entry of its output block: from the five loaded blocks, the
   entry in row p and column q is the two row-by-column products summed over the 64 input columns, plus the bias of
   column q, clamped below at zero. At the exact instance the narrowing of the operands before the products is the
   identity and a product accumulated from zero is the plain sum. -/
import proofs.«413053_j40587440947286_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Cert.KernelIdeal Cert.KernelIdeal.Gen Idealize.ShloMosaic
open Idealize.ShloMosaic.ValueIdx

/-! ## The operand indices of the 2000x64 by 64x128 product, axis by axis -/

/-- The left operand's row is the output's row. -/
theorem lhs_dot0_0 (i : S2000x128.Idx) (c : dot_S2000x64_S64x128_S2000x128_1_0_0_1_n_n.contr.Idx) :
    (dot_S2000x64_S64x128_S2000x128_1_0_0_1_n_n.lhsIdx i c 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
/-- The left operand's column is the contraction coordinate. -/
theorem lhs_dot0_1 (i : S2000x128.Idx) (c : dot_S2000x64_S64x128_S2000x128_1_0_0_1_n_n.contr.Idx) :
    (dot_S2000x64_S64x128_S2000x128_1_0_0_1_n_n.lhsIdx i c 1).val = (c ⟨0, by decide⟩).val :=
  dot_S2000x64_S64x128_S2000x128_1_0_0_1_n_n.lhsIdx_val_of_single rfl i c
/-- The right operand's row is the contraction coordinate. -/
theorem rhs_dot0_0 (i : S2000x128.Idx) (c : dot_S2000x64_S64x128_S2000x128_1_0_0_1_n_n.contr.Idx) :
    (dot_S2000x64_S64x128_S2000x128_1_0_0_1_n_n.rhsIdx i c 0).val = (c ⟨0, by decide⟩).val :=
  dot_S2000x64_S64x128_S2000x128_1_0_0_1_n_n.rhsIdx_val_of_single rfl i c
/-- The right operand's column is the output's column. -/
theorem rhs_dot0_1 (i : S2000x128.Idx) (c : dot_S2000x64_S64x128_S2000x128_1_0_0_1_n_n.contr.Idx) :
    (dot_S2000x64_S64x128_S2000x128_1_0_0_1_n_n.rhsIdx i c 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- One product of the stage, accumulated from zero, at row p and column q: the sum over the 64 shared columns. The
    operands are narrowed before the product, which changes nothing at the exact instance; they are given up to an
    equation so that an operand behind an identity reshape fits. -/
theorem prod0_apply (a a' : FVec Ideal S2000x64 .f32) (b b' : FVec Ideal S64x128 .f32) (ha : a' = a) (hb : b' = b) (p : Fin 2000) (q : Fin 128) :
    FloatOps.matmul (F := Ideal) dot_S2000x64_S64x128_S2000x128_1_0_0_1_n_n none (truncf .bf16 a' bitsLt_bf16_f32) (truncf .bf16 b' bitsLt_bf16_f32)
        (constant S2000x128 .f32 0x00000000#32) (ix2 p q)
      = ∑ k : Fin 64, a (ix2 p k) * b (ix2 k q) := by
  subst ha hb
  refine (Ideal.matmul_constant_zero_apply dot_S2000x64_S64x128_S2000x128_1_0_0_1_n_n none (truncf .bf16 a' bitsLt_bf16_f32) (truncf .bf16 b' bitsLt_bf16_f32) (ix2 p q)).trans ?_
  rw [← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx (ix2 p q) ((ValueIdx.contrEquiv1 dot_S2000x64_S64x128_S2000x128_1_0_0_1_n_n 64 rfl rfl).symm k) = ix2 p k := funext fun d => Fin.ext (by
    match d with
    | ⟨0, _⟩ => exact lhs_dot0_0 _ _
    | ⟨1, _⟩ => exact (lhs_dot0_1 _ _).trans hk)
  have er : dot_S2000x64_S64x128_S2000x128_1_0_0_1_n_n.rhsIdx (ix2 p q) ((ValueIdx.contrEquiv1 dot_S2000x64_S64x128_S2000x128_1_0_0_1_n_n 64 rfl rfl).symm k) = ix2 k q := funext fun d => Fin.ext (by
    match d with
    | ⟨0, _⟩ => exact (rhs_dot0_0 _ _).trans hk
    | ⟨1, _⟩ => exact rhs_dot0_1 _ _)
  show a' (dot_S2000x64_S64x128_S2000x128_1_0_0_1_n_n.lhsIdx (ix2 p q) _) * b' (dot_S2000x64_S64x128_S2000x128_1_0_0_1_n_n.rhsIdx (ix2 p q) _) = _
  rw [el, er]

/-- The bias row spread over the 2000 rows reads, at row p and column q, the bias of column q. -/
theorem bias0_apply (x4 : Vec Ideal S1x128 .f32) (p : Fin 2000) (q : Fin 128) :
    broadcastTo S2000x128 (shapeCast S1x128 x4 shapeCasts_S1x128_S1x128) broadcasts_S1x128_S2000x128 (ix2 p q) = x4 (ix2 (0 : Fin 1) q) := by
  rw [shapeCast_self]
  exact broadcastTo_apply x4 broadcasts_S1x128_S2000x128 (ix2 p q) (ix2 (0 : Fin 1) q) (fun d => match d with
    | ⟨0, _⟩ => rfl
    | ⟨1, _⟩ => rfl)

theorem pay0_apply (x0 x1 : Vec Ideal S2000x64 .f32) (x2 x3 : Vec Ideal S64x128 .f32) (x4 : Vec Ideal S1x128 .f32) (p : Fin 2000) (q : Fin 128) :
    k0_pay1 (F := Ideal) x0 x1 x2 x3 x4 (ix2 p q)
      = max (((∑ k : Fin 64, x0 (ix2 p k) * x2 (ix2 k q)) + (∑ k : Fin 64, x1 (ix2 p k) * x3 (ix2 k q))) + x4 (ix2 (0 : Fin 1) q)) 0 := by
  unfold k0_pay1
  have m0 := prod0_apply x0 _ x2 _ (shapeCast_self x0 shapeCasts_S2000x64_S2000x64) (shapeCast_self x2 shapeCasts_S64x128_S64x128) p q
  have m1 := prod0_apply x1 _ x3 _ rfl (shapeCast_self x3 shapeCasts_S64x128_S64x128) p q
  have hb := bias0_apply x4 p q
  have hz : (Scalar.ofBits .f32 0x00000000#32 : Ideal .f32) = 0 := Ideal.ofBits_zero_f32
  exact congrArg₂ max (congrArg₂ (· + ·) (congrArg₂ (· + ·) m0 m1) hb) hz

end Cert.KernelIdeal.Pay

end
-- ==== Proof.RegionValue0.lean ====
/- The first dense stage as one function of the arrays its pipeline stages: for whatever the region finds in its
   five input arrays, the output array after the last grid point is, row by row and column by column, the
   clamped-below-at-zero sum of the two matrix products and the bias. -/
import proofs.«413053_j40587440947286_1_alg».proof.Proof.Gen.KernelIdeal.Frame
import proofs.«413053_j40587440947286_1_alg».proof.Proof.Pay0
import Idealize.ShloMosaic.Lib.ValueIdx
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat Cfg)

variable (V : (c : Dev nD) → (b : Ref sig .tc) → Buf (Elt Ideal) ((c : Thread nD τ).loc b))

/-- One dense stage with 64 input columns, at an index: (mean · Wl) + (root · Wr) + bias. -/
def lin64 (a r : FVec Ideal S50000x64 .f32) (wl wr : FVec Ideal S64x128 .f32) (b : FVec Ideal S1x128 .f32) : FVec Ideal S50000x128 .f32 :=
  fun i => ((∑ k : Fin 64, a (ix2 (⟨(i 0).val, (i 0).isLt⟩ : Fin 50000) k) * wl (ix2 k (⟨(i 1).val, (i 1).isLt⟩ : Fin 128)))
    + (∑ k : Fin 64, r (ix2 (⟨(i 0).val, (i 0).isLt⟩ : Fin 50000) k) * wr (ix2 k (⟨(i 1).val, (i 1).isLt⟩ : Fin 128))))
    + b (ix2 (0 : Fin 1) (⟨(i 1).val, (i 1).isLt⟩ : Fin 128))

/-! ## The index maps over the grid -/

theorem hz : (![0, 0] : Fin 2 → Nat) = fun _ => 0 := funext fun a => by fin_cases a <;> rfl

/-- The printed index maps, decided once over the 25 grid points: the two row-blocked inputs and the output sit at
    block row t and block column 0; the two weights and the bias sit at block (0, 0) at every point. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row of the output is some point's: block row n is point n's. -/
theorem idx_onto : ∀ n : Fin 25, ∃ t : Fin cfg0.N, t.val = n.val :=
  (by decide +kernel : ∀ n : Fin 25, ∃ t : Fin grid0.N, t.val = n.val)

/-! ## The input blocks, read where the output's block says -/

/-- Row p of point t's block of the first row-blocked input is row 2000 t + p of its array. -/
theorem blk0_apply (c : Dev nD) (t : Fin cfg0.N) (p : Fin 2000) (k : Fin 64) (r : Fin 50000) (hr : r.val = t.val * 2000 + p.val) :
    (iblk0 (F := Ideal) V c 0 t : Vec Ideal S2000x64 .f32) (ix2 p k) = (V c main_v18 : FVec Ideal S50000x64 .f32) (ix2 r k) := by
  obtain ⟨e0, e1, -⟩ := idx_facts t
  unfold iblk0
  rw [View.read_apply]
  show V c main_v18 _ = V c main_v18 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 64 + 1 * k.val = k.val; rw [e1]; omega

/-- Row p of point t's block of the second row-blocked input is row 2000 t + p of its array. -/
theorem blk1_apply (c : Dev nD) (t : Fin cfg0.N) (p : Fin 2000) (k : Fin 64) (r : Fin 50000) (hr : r.val = t.val * 2000 + p.val) :
    (iblk0 (F := Ideal) V c 1 t : Vec Ideal S2000x64 .f32) (ix2 p k) = (V c main_arg0 : FVec Ideal S50000x64 .f32) (ix2 r k) := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 64 + 1 * k.val = k.val; rw [e1]; omega

/-- Each point's block of the first weight is the whole weight. -/
theorem blk2_apply (c : Dev nD) (t : Fin cfg0.N) (k : Fin 64) (q q' : Fin 128) (hq : q'.val = q.val) :
    (iblk0 (F := Ideal) V c 2 t : Vec Ideal S64x128 .f32) (ix2 k q) = (V c main_v19 : FVec Ideal S64x128 .f32) (ix2 k q') := by
  obtain ⟨-, -, -, -, e0, e1, -⟩ := idx_facts t
  unfold iblk0
  rw [View.read_apply]
  show V c main_v19 _ = V c main_v19 _
  congr 1
  funext a
  apply Fin.ext
  match a with
  | ⟨0, _⟩ => show win0_2.index t (0 : Fin 2) * 64 + 1 * k.val = k.val; rw [e0]; omega
  | ⟨1, _⟩ => show win0_2.index t (1 : Fin 2) * 128 + 1 * q.val = q'.val; rw [e1, hq]; omega

/-- Each point's block of the second weight is the whole weight. -/
theorem blk3_apply (c : Dev nD) (t : Fin cfg0.N) (k : Fin 64) (q q' : Fin 128) (hq : q'.val = q.val) :
    (iblk0 (F := Ideal) V c 3 t : Vec Ideal S64x128 .f32) (ix2 k q) = (V c main_v20 : FVec Ideal S64x128 .f32) (ix2 k q') := by
  obtain ⟨-, -, -, -, -, -, e0, e1, -⟩ := idx_facts t
  unfold iblk0
  rw [View.read_apply]
  show V c main_v20 _ = V c main_v20 _
  congr 1
  funext a
  apply Fin.ext
  match a with
  | ⟨0, _⟩ => show win0_3.index t (0 : Fin 2) * 64 + 1 * k.val = k.val; rw [e0]; omega
  | ⟨1, _⟩ => show win0_3.index t (1 : Fin 2) * 128 + 1 * q.val = q'.val; rw [e1, hq]; omega

/-- Each point's block of the bias is the whole bias. -/
theorem blk4_apply (c : Dev nD) (t : Fin cfg0.N) (q q' : Fin 128) (hq : q'.val = q.val) :
    (iblk0 (F := Ideal) V c 4 t : Vec Ideal S1x128 .f32) (ix2 (0 : Fin 1) q) = (V c main_v21 : FVec Ideal S1x128 .f32) (ix2 (0 : Fin 1) q') := by
  obtain ⟨-, -, -, -, -, -, -, -, e0, e1, -⟩ := idx_facts t
  unfold iblk0
  rw [View.read_apply]
  show V c main_v21 _ = V c main_v21 _
  congr 1
  funext a
  apply Fin.ext
  match a with
  | ⟨0, _⟩ => show win0_4.index t (0 : Fin 2) * 1 + 1 * 0 = 0; rw [e0]
  | ⟨1, _⟩ => show win0_4.index t (1 : Fin 2) * 128 + 1 * q.val = q'.val; rw [e1, hq]; omega

/-! ## One entry of a point's output block -/

/-- One entry of the body's result from five blocks that are, along the row and the column the entry sits in, the
    rows and columns of five arrays: the dense stage of those arrays at the entry's array index. -/
theorem point_apply (A R : FVec Ideal S50000x64 .f32) (Wl Wr : FVec Ideal S64x128 .f32) (B : FVec Ideal S1x128 .f32)
    (x0 x1 : Vec Ideal S2000x64 .f32) (x2 x3 : Vec Ideal S64x128 .f32) (x4 : Vec Ideal S1x128 .f32)
    (i : S50000x128.Idx) (p : Fin 2000) (q : Fin 128)
    (h0 : ∀ k : Fin 64, x0 (ix2 p k) = A (ix2 (⟨(i 0).val, (i 0).isLt⟩ : Fin 50000) k))
    (h1 : ∀ k : Fin 64, x1 (ix2 p k) = R (ix2 (⟨(i 0).val, (i 0).isLt⟩ : Fin 50000) k))
    (h2 : ∀ k : Fin 64, x2 (ix2 k q) = Wl (ix2 k (⟨(i 1).val, (i 1).isLt⟩ : Fin 128)))
    (h3 : ∀ k : Fin 64, x3 (ix2 k q) = Wr (ix2 k (⟨(i 1).val, (i 1).isLt⟩ : Fin 128)))
    (h4 : x4 (ix2 (0 : Fin 1) q) = B (ix2 (0 : Fin 1) (⟨(i 1).val, (i 1).isLt⟩ : Fin 128))) :
    k0_pay1 (F := Ideal) x0 x1 x2 x3 x4 (ix2 p q) = max (lin64 A R Wl Wr B i) 0 := by
  have e1 : (∑ k : Fin 64, x0 (ix2 p k) * x2 (ix2 k q))
      = ∑ k : Fin 64, A (ix2 (⟨(i 0).val, (i 0).isLt⟩ : Fin 50000) k) * Wl (ix2 k (⟨(i 1).val, (i 1).isLt⟩ : Fin 128)) :=
    Finset.sum_congr rfl fun k _ => by rw [h0 k, h2 k]
  have e2 : (∑ k : Fin 64, x1 (ix2 p k) * x3 (ix2 k q))
      = ∑ k : Fin 64, R (ix2 (⟨(i 0).val, (i 0).isLt⟩ : Fin 50000) k) * Wr (ix2 k (⟨(i 1).val, (i 1).isLt⟩ : Fin 128)) :=
    Finset.sum_congr rfl fun k _ => by rw [h1 k, h3 k]
  rw [Pay.pay0_apply, e1, e2, h4]
  rfl

/-! ## What each point writes back, and the array after the run -/

/-- What point t writes back is block t of the dense stage of the five arrays as the region finds them. -/
theorem flushed_eq (c : Dev nD) (t : Fin cfg0.N) :
    (dat0 (F := Ideal) V c).flushed 5 t
      = ((cfg0.win 5).blk t).view.read (Elt Ideal)
          ((fun i => max (lin64 (V c main_v18) (V c main_arg0) (V c main_v19) (V c main_v20) (V c main_v21) i) 0 :
            FVec Ideal S50000x128 .f32)) := by
  show (cfg0.win 5).cut (grid0.coords t) ((dat0 (F := Ideal) V c).after 5 t) = _
  rw [after0_5]
  unfold out0_5
  rw [View.canon_unit_zero hz]
  simp only [View.ld_unit_zero (S := S2000x64) hz, View.ld_unit_zero (S := S64x128) hz, View.ld_unit_zero (S := S1x128) hz]
  funext j
  obtain ⟨p, q, rfl⟩ : ∃ (p : Fin 2000) (q : Fin 128), j = ix2 p q := ⟨j 0, j 1, eq_ix2 j⟩
  have e5 := (idx_facts t).2.2.2.2.2.2.2.2.2.2
  have key : ∀ i : S50000x128.Idx, (i 0).val = win0_5.index t (0 : Fin 2) * 2000 + 1 * p.val →
      (i 1).val = win0_5.index t (1 : Fin 2) * 128 + 1 * q.val →
      k0_pay1 (F := Ideal) (iblk0 V c 0 t) (iblk0 V c 1 t) (iblk0 V c 2 t) (iblk0 V c 3 t) (iblk0 V c 4 t) (ix2 p q)
        = max (lin64 (V c main_v18) (V c main_arg0) (V c main_v19) (V c main_v20) (V c main_v21) i) 0 := by
    intro i hi0 hi1
    rw [e5.1] at hi0
    rw [e5.2] at hi1
    exact point_apply _ _ _ _ _ _ _ _ _ _ i p q
      (fun k => blk0_apply V c t p k _ (by show (i 0).val = _; omega))
      (fun k => blk1_apply V c t p k _ (by show (i 0).val = _; omega))
      (fun k => blk2_apply V c t k q _ (by show (i 1).val = _; omega))
      (fun k => blk3_apply V c t k q _ (by show (i 1).val = _; omega))
      (blk4_apply V c t q _ (by show (i 1).val = _; omega))
  exact key (((cfg0.win 5).blk t).view.emb (ix2 p q)) rfl rfl

/-- An index of the output array is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v22).slice (win0_5.rect t)).set ↔ _
  rw [View.set_slice_whole, Rect.mem_set_unit]
  exact Iff.rfl

/-- The output's blocks tile its array: row r is in the block of point r / 2000. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 2000, by omega⟩
  have ht' : t.val = (i 0).val / 2000 := ht
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [e0, ht']; omega
  | ⟨1, _⟩ => show win0_5.index t (1 : Fin 2) * 128 ≤ (i 1).val ∧ (i 1).val < win0_5.index t (1 : Fin 2) * 128 + 128; rw [e1]; omega

/-- THE FIRST REGION'S OUTPUT ARRAY after its pipeline has run, for any entry contents `V`. -/
theorem final0 (c : Dev nD) :
    (dat0 (F := Ideal) V c).arrAt 5 cfg0.N
      = fun i => max (lin64 (V c main_v18) (V c main_arg0) (V c main_v19) (V c main_v20) (V c main_v21) i) 0 :=
  (dat0 (F := Ideal) V c).arrAt_eq_of_cover 5 _ (fun t _ => flushed_eq V c t) covered

end Cert.KernelIdeal.RegionValue

end
-- ==== Proof.Pay1.lean ====
/- The second dense stage's body as arithmetic at one entry of its output block: from the five loaded blocks, the
   entry in row p and column q is the two row-by-column products summed over the 128 input columns, plus the bias of
   column q. At the exact instance the narrowing of the operands before the products is the
   identity and a product accumulated from zero is the plain sum. -/
import proofs.«413053_j40587440947286_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay1

open Cert.KernelIdeal Cert.KernelIdeal.Gen Idealize.ShloMosaic
open Idealize.ShloMosaic.ValueIdx

/-- The left operand's row coordinate is the output's row. -/
theorem lhs_dot_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column coordinate is the contracted index. -/
theorem lhs_dot_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
/-- The right operand's row coordinate is the contracted index. -/
theorem rhs_dot_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
/-- The right operand's column coordinate is the output's column. -/
theorem rhs_dot_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product of a 2000 x 128 block by a 128 x 128 block accumulated from zero, at row p and column q: the sum over
    the 128 shared columns of the row entry times the column entry. -/
theorem dot_zero_apply (a : FVec Ideal S2000x128 .bf16) (b : FVec Ideal S128x128 .bf16) (p : Fin 2000) (q : Fin 128) :
    matmul (F := Ideal) dot_S2000x128_S128x128_S2000x128_1_0_0_1_n_n none a b (constant S2000x128 .f32 0x00000000#32) (ix2 p q)
      = ∑ k : Fin 128, a (ix2 p k) * b (ix2 k q) := by
  refine (Ideal.matmul_constant_zero_apply dot_S2000x128_S128x128_S2000x128_1_0_0_1_n_n none a b (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

theorem pay1_apply (x0 x1 : Vec Ideal S2000x128 .f32) (x2 x3 : Vec Ideal S128x128 .f32) (x4 : Vec Ideal S1x128 .f32) (p : Fin 2000) (q : Fin 128) :
    k1_pay1 (F := Ideal) x0 x1 x2 x3 x4 (ix2 p q)
      = (((∑ k : Fin 128, x0 (ix2 p k) * x2 (ix2 k q)) + (∑ k : Fin 128, x1 (ix2 p k) * x3 (ix2 k q))) + x4 (ix2 (0 : Fin 1) q)) := by
  unfold k1_pay1
  rw [shapeCast_self x0, shapeCast_self x1, shapeCast_self x2, shapeCast_self x3, shapeCast_self x4]
  refine congrArg₂ (· + ·) (congrArg₂ (· + ·) ?_ ?_) ?_
  · exact dot_zero_apply _ _ p q
  · exact dot_zero_apply _ _ p q
  · exact broadcastTo_apply x4 _ (ix2 p q) (ix2 (0 : Fin 1) q) (fun a => match a with
      | ⟨0, _⟩ => rfl
      | ⟨1, _⟩ => rfl)

end Cert.KernelIdeal.Pay1

end
-- ==== Proof.RegionValue1.lean ====
/- The second dense stage as one function of the arrays its pipeline stages: for whatever the region finds in its
   five input arrays, the output array after the last grid point is, row by row and column by column, the
   sum of the two matrix products and the bias. -/
import proofs.«413053_j40587440947286_1_alg».proof.Proof.Gen.KernelIdeal.Frame
import proofs.«413053_j40587440947286_1_alg».proof.Proof.Pay1
import Idealize.ShloMosaic.Lib.ValueIdx
import Idealize.ShloMosaic.Lib.Pipeline.Value
import Idealize.ShloMosaic.PureOps.Ideal.Laws

set_option maxRecDepth 16384

noncomputable section

namespace Cert.KernelIdeal.RegionValue1

open Cert.KernelIdeal Cert.KernelIdeal.Gen Idealize.ShloMosaic Idealize.ShloMosaic.TcCoe Idealize.SL.Sem
open Idealize.ShloMosaic.ValueIdx
open Idealize.ShloMosaic.Pipeline (Dat Cfg)

variable (V : (c : Dev nD) → (b : Ref sig .tc) → Buf (Elt Ideal) ((c : Thread nD τ).loc b))

/-- One dense stage with 128 input columns, at an index: (mean · Wl) + (root · Wr) + bias. -/
def lin128 (a r : FVec Ideal S50000x128 .f32) (wl wr : FVec Ideal S128x128 .f32) (b : FVec Ideal S1x128 .f32) : FVec Ideal S50000x128 .f32 :=
  fun i => ((∑ k : Fin 128, a (ix2 (⟨(i 0).val, (i 0).isLt⟩ : Fin 50000) k) * wl (ix2 k (⟨(i 1).val, (i 1).isLt⟩ : Fin 128)))
    + (∑ k : Fin 128, r (ix2 (⟨(i 0).val, (i 0).isLt⟩ : Fin 50000) k) * wr (ix2 k (⟨(i 1).val, (i 1).isLt⟩ : Fin 128))))
    + b (ix2 (0 : Fin 1) (⟨(i 1).val, (i 1).isLt⟩ : Fin 128))

/-- The stage at row P and column q. -/
theorem lin128_ix2 (a r : FVec Ideal S50000x128 .f32) (wl wr : FVec Ideal S128x128 .f32) (b : FVec Ideal S1x128 .f32)
    (P : Fin 50000) (q : Fin 128) :
    lin128 a r wl wr b (ix2 P q)
      = ((∑ k : Fin 128, a (ix2 P k) * wl (ix2 k q)) + (∑ k : Fin 128, r (ix2 P k) * wr (ix2 k q))) + b (ix2 (0 : Fin 1) q) := rfl

theorem zeros2 : (![0, 0] : Fin 2 → Nat) = fun _ => 0 :=
  funext fun a => match a with | ⟨0, _⟩ => rfl | ⟨1, _⟩ => rfl

/-- The index maps over the 25 grid points: the two row-blocked inputs and the output sit at block (t, 0), the two weights
    and the bias at block (0, 0). -/
theorem blockIdx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ t.val < 25 :=
  (by decide +kernel : ∀ t : Fin grid1.N, _)

/-- A row-blocked input's block at point t, at row p of the block, reads row 2000 t + p of the array (first input). -/
theorem rows0_at (c : Dev nD) (t : Fin cfg1.N) (p : Fin 2000) (k : Fin 128) (P : Fin 50000) (hP : P.val = t.val * 2000 + p.val) :
    (iblk1 (F := Ideal) V c 0 t : Vec Ideal S2000x128 .f32) (ix2 p k) = (V c main_v29 : FVec Ideal S50000x128 .f32) (ix2 P k) := by
  obtain ⟨e0, e1, -⟩ := blockIdx t
  unfold iblk1
  rw [View.read_apply]
  show V c main_v29 _ = V c main_v29 _
  congr 1
  funext a
  apply Fin.ext
  match a with
  | ⟨0, _⟩ => show win1_0.index t (0 : Fin 2) * 2000 + 1 * p.val = P.val; omega
  | ⟨1, _⟩ => show win1_0.index t (1 : Fin 2) * 128 + 1 * k.val = k.val; omega

/-- The same for the second row-blocked input. -/
theorem rows1_at (c : Dev nD) (t : Fin cfg1.N) (p : Fin 2000) (k : Fin 128) (P : Fin 50000) (hP : P.val = t.val * 2000 + p.val) :
    (iblk1 (F := Ideal) V c 1 t : Vec Ideal S2000x128 .f32) (ix2 p k) = (V c main_v22 : FVec Ideal S50000x128 .f32) (ix2 P k) := by
  obtain ⟨-, -, e0, e1, -⟩ := blockIdx t
  unfold iblk1
  rw [View.read_apply]
  show V c main_v22 _ = V c main_v22 _
  congr 1
  funext a
  apply Fin.ext
  match a with
  | ⟨0, _⟩ => show win1_1.index t (0 : Fin 2) * 2000 + 1 * p.val = P.val; omega
  | ⟨1, _⟩ => show win1_1.index t (1 : Fin 2) * 128 + 1 * k.val = k.val; omega

/-- A weight's block at any point is the whole weight (left). -/
theorem wl_at (c : Dev nD) (t : Fin cfg1.N) (k q : Fin 128) :
    (iblk1 (F := Ideal) V c 2 t : Vec Ideal S128x128 .f32) (ix2 k q) = (V c main_v30 : FVec Ideal S128x128 .f32) (ix2 k q) := by
  obtain ⟨-, -, -, -, e0, e1, -⟩ := blockIdx t
  unfold iblk1
  rw [View.read_apply]
  show V c main_v30 _ = V c main_v30 _
  congr 1
  funext a
  apply Fin.ext
  match a with
  | ⟨0, _⟩ => show win1_2.index t (0 : Fin 2) * 128 + 1 * k.val = k.val; omega
  | ⟨1, _⟩ => show win1_2.index t (1 : Fin 2) * 128 + 1 * q.val = q.val; omega

/-- A weight's block at any point is the whole weight (right). -/
theorem wr_at (c : Dev nD) (t : Fin cfg1.N) (k q : Fin 128) :
    (iblk1 (F := Ideal) V c 3 t : Vec Ideal S128x128 .f32) (ix2 k q) = (V c main_v31 : FVec Ideal S128x128 .f32) (ix2 k q) := by
  obtain ⟨-, -, -, -, -, -, e0, e1, -⟩ := blockIdx t
  unfold iblk1
  rw [View.read_apply]
  show V c main_v31 _ = V c main_v31 _
  congr 1
  funext a
  apply Fin.ext
  match a with
  | ⟨0, _⟩ => show win1_3.index t (0 : Fin 2) * 128 + 1 * k.val = k.val; omega
  | ⟨1, _⟩ => show win1_3.index t (1 : Fin 2) * 128 + 1 * q.val = q.val; omega

/-- The bias's block at any point is the whole bias. -/
theorem bias_at (c : Dev nD) (t : Fin cfg1.N) (z : Fin 1) (q : Fin 128) :
    (iblk1 (F := Ideal) V c 4 t : Vec Ideal S1x128 .f32) (ix2 z q) = (V c main_v32 : FVec Ideal S1x128 .f32) (ix2 z q) := by
  obtain ⟨-, -, -, -, -, -, -, -, e0, e1, -⟩ := blockIdx t
  unfold iblk1
  rw [View.read_apply]
  show V c main_v32 _ = V c main_v32 _
  congr 1
  funext a
  apply Fin.ext
  match a with
  | ⟨0, _⟩ => show win1_4.index t (0 : Fin 2) * 1 + 1 * z.val = z.val; omega
  | ⟨1, _⟩ => show win1_4.index t (1 : Fin 2) * 128 + 1 * q.val = q.val; omega

/-- The output's block at point t sends row p of the block to row 2000 t + p of the array. -/
theorem out_emb (t : Fin cfg1.N) (p : Fin 2000) (q : Fin 128) (P : Fin 50000) (hP : P.val = t.val * 2000 + p.val) :
    ((cfg1.win 5).blk t).view.emb (ix2 p q) = (ix2 P q : S50000x128.Idx) := by
  obtain ⟨-, -, -, -, -, -, -, -, -, -, e0, e1, -⟩ := blockIdx t
  funext a
  apply Fin.ext
  match a with
  | ⟨0, _⟩ => show win1_5.index t (0 : Fin 2) * 2000 + 1 * p.val = P.val; omega
  | ⟨1, _⟩ => show win1_5.index t (1 : Fin 2) * 128 + 1 * q.val = q.val; omega

/-- WHAT POINT t WRITES BACK is block t of the dense stage of the five staged arrays. -/
theorem writeBack_eq (c : Dev nD) (t : Fin cfg1.N) :
    (dat1 (F := Ideal) V c).flushed 5 t
      = ((cfg1.win 5).blk t).view.read (Elt Ideal)
          (lin128 (V c main_v29) (V c main_v22) (V c main_v30) (V c main_v31) (V c main_v32)) := by
  show (cfg1.win 5).cut (grid1.coords t) ((dat1 (F := Ideal) V c).after 5 t) = _
  rw [after1_5]
  unfold out1_5
  rw [View.canon_unit_zero zeros2]
  simp only [View.ld_unit_zero (S := S2000x128) zeros2, View.ld_unit_zero (S := S128x128) zeros2, View.ld_unit_zero (S := S1x128) zeros2]
  funext j
  obtain ⟨p, q, rfl⟩ : ∃ (p : Fin 2000) (q : Fin 128), j = ix2 p q := ⟨j 0, j 1, eq_ix2 j⟩
  have ht : t.val < 25 := (blockIdx t).2.2.2.2.2.2.2.2.2.2.2.2
  have hp : p.val < 2000 := p.isLt
  refine (Pay1.pay1_apply _ _ _ _ _ p q).trans ?_
  rw [View.read_apply, out_emb t p q ⟨t.val * 2000 + p.val, by omega⟩ rfl]
  refine (?_ : _ = lin128 (V c main_v29) (V c main_v22) (V c main_v30) (V c main_v31) (V c main_v32) (ix2 ⟨t.val * 2000 + p.val, by omega⟩ q))
  rw [lin128_ix2, bias_at V c t 0 q]
  congr 2
  · exact Finset.sum_congr rfl fun k _ => by rw [rows0_at V c t p k ⟨t.val * 2000 + p.val, by omega⟩ rfl, wl_at V c t k q]
  · exact Finset.sum_congr rfl fun k _ => by rw [rows1_at V c t p k ⟨t.val * 2000 + p.val, by omega⟩ rfl, wr_at V c t k q]

/-- An index of the array is in point t's block iff each coordinate is in the block's range on its axis. -/
theorem mem_rowBlock (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v33).slice (win1_5.rect t)).set ↔ _
  rw [View.set_slice_whole, Rect.mem_set_unit]
  exact Iff.rfl

/-- Every row block of the array is SOME point's. -/
theorem point_of_block : ∀ b : Fin 25, ∃ t : Fin cfg1.N, t.val = b.val :=
  fun b => ⟨⟨b.val, by have := b.isLt; show b.val < grid1.N; rw [N_1]; exact this⟩, rfl⟩

/-- The 25 blocks of 2000 rows tile the 50000 rows: row r is in the block of point r / 2000. -/
theorem rows_tiled (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := point_of_block ⟨(i 0).val / 2000, by omega⟩
  have ht' : t.val = (i 0).val / 2000 := ht
  obtain ⟨-, -, -, -, -, -, -, -, -, -, e0, e1, -⟩ := blockIdx t
  refine ⟨t, flush1_5 t, ?_⟩
  rw [mem_rowBlock]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE SECOND REGION'S OUTPUT ARRAY after its pipeline has run, for any entry contents `V`. -/
theorem final1 (c : Dev nD) :
    (dat1 (F := Ideal) V c).arrAt 5 cfg1.N
      = lin128 (V c main_v29) (V c main_v22) (V c main_v30) (V c main_v31) (V c main_v32) :=
  (dat1 (F := Ideal) V c).arrAt_eq_of_cover 5
    (lin128 (V c main_v29) (V c main_v22) (V c main_v30) (V c main_v31) (V c main_v32))
    (fun t _ => writeBack_eq V c t) rows_tiled

end Cert.KernelIdeal.RegionValue1

end
-- ==== Proof.PreMask.lean ====
/- Under the precondition every source id lies in [-50000, 50000), so after the wrap of negatives every gather index
   is a valid row and the range mask the kernel's gather carries is all ones: the masked gather is the plain gather. -/
import proofs.«413053_j40587440947286_1_alg».proof.Defs
import proofs.«413053_j40587440947286_1_alg».proof.Proof.Gen.Pre_finite_inputs
import proofs.«413053_j40587440947286_1_alg».proof.Proof.KTerms
import Idealize.ShloMosaic.Lib.ReduceAll
import Idealize.ShloMosaic.Lib.StableHlo.Predicate
import Idealize.ShloMosaic.Lib.Pipeline.Value

set_option maxRecDepth 16384

noncomputable section

namespace Cert.KernelIdeal.PreMask

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The precondition's last conjunct, read at one edge: the source id is in [-50000, 50000) as a signed word. -/
theorem src_range (h : Cert.Pre_KernelIdeal m) (c : Dev nD) (e : S800000.Idx) :
    -50000 ≤ (T.src (m ((c : Thread nD τ).loc main_arg1)) e).toInt
      ∧ (T.src (m ((c : Thread nD τ).loc main_arg1)) e).toInt < 50000 := by
  have h0 := congrFun (h c) ValueIdx.ix0
  dsimp only [Cert.Pre_finite_inputs.fn, Cert.Pre_finite_inputs.fn_part1, Cert.Pre_finite_inputs.fn_part2] at h0
  have h1 := (IntOp.andi_eq_one.1 h0).2
  haveI : Subsingleton Cert.Pre_finite_inputs.S_.Idx := ⟨fun a b => funext fun d => d.elim0⟩
  have h2 := Host.reduce_andi_all _ _ _ _ _ h1 e
  obtain ⟨hge, hlt⟩ := IntOp.andi_eq_one.1 h2
  change IntOp.cmpi .sge (T.src (m ((c : Thread nD τ).loc main_arg1)) e) 4294917296#32 = 1#1 at hge
  change IntOp.cmpi .slt (T.src (m ((c : Thread nD τ).loc main_arg1)) e) 50000#32 = 1#1 at hlt
  simp only [IntOp.cmpi, BitVec.sle, BitVec.slt, StableHlo.Predicate.ofBool_eq_one_iff, decide_eq_true_eq] at hge hlt
  have e1 : (4294917296#32 : BitVec 32).toInt = -50000 := by decide
  have e2 : (50000#32 : BitVec 32).toInt = 50000 := by decide
  rw [e1] at hge
  rw [e2] at hlt
  exact ⟨hge, hlt⟩

/-- A source id in [-50000, 50000), wrapped once by 50000 when negative, passes both range tests. -/
theorem wrap_in_range (s : BitVec 32) (h1 : -50000 ≤ s.toInt) (h2 : s.toInt < 50000) :
    IntOp.andi
      (IntOp.cmpi .sge (Scalar.select (IntOp.cmpi .slt s 0#32) (IntOp.addi s 50000#32) s) 0#32)
      (IntOp.cmpi .sle (Scalar.select (IntOp.cmpi .slt s 0#32) (IntOp.addi s 50000#32) s) 49999#32) = 1#1 := by
  have z0 : (0#32 : BitVec 32).toInt = 0 := by decide
  have z1 : (49999#32 : BitVec 32).toInt = 49999 := by decide
  have z2 : (50000#32 : BitVec 32).toInt = 50000 := by decide
  rw [IntOp.andi_eq_one]
  by_cases hneg : s.toInt < 0
  · have hc : IntOp.cmpi .slt s 0#32 = 1#1 := by
      simp only [IntOp.cmpi, BitVec.slt, StableHlo.Predicate.ofBool_eq_one_iff, decide_eq_true_eq, z0]; exact hneg
    have hadd : (IntOp.addi s 50000#32).toInt = s.toInt + 50000 := by
      show (s + 50000#32).toInt = _
      rw [BitVec.toInt_add, z2]
      exact Int.bmod_eq_of_le_mul_two (by omega) (by omega)
    rw [hc, ValueIdx.select_one]
    simp only [IntOp.cmpi, BitVec.sle, StableHlo.Predicate.ofBool_eq_one_iff, decide_eq_true_eq, z0, z1, hadd]
    omega
  · have hc : IntOp.cmpi .slt s 0#32 = 0#1 := by
      apply ValueIdx.eq_zero_of_ne_one
      simp only [IntOp.cmpi, BitVec.slt, StableHlo.Predicate.ofBool_eq_one_iff, decide_eq_true_eq, z0]; exact hneg
    rw [hc, ValueIdx.select_zero]
    simp only [IntOp.cmpi, BitVec.sle, StableHlo.Predicate.ofBool_eq_one_iff, decide_eq_true_eq, z0, z1]
    omega

/-- A broadcast read at an index is the operand read at some index. -/
theorem bcast_exists {α : Type} {s t : Shape} (dims : Fin s.rank → Fin t.rank) (hb : s.BroadcastsInDim t dims)
    (x : s.Idx → α) (i : t.Idx) : ∃ e, broadcastInDim t dims hb x i = x e := ⟨_, rfl⟩

/-- An and-fold from 1 over words that are all 1 is 1. -/
theorem foldl_andi_ones {ι : Type} (f : ι → BitVec 1) (hf : ∀ i, f i = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a]
    exact foldl_andi_ones f hf l

/-- Every edge's wrapped source id is a valid row. -/
theorem mask_ones (h : Cert.Pre_KernelIdeal m) (c : Dev nD) :
    T.mask (m ((c : Thread nD τ).loc main_arg1)) = fun _ => 1#1 := by
  funext j
  unfold T.mask
  rw [Host.reduce_eq_foldl]
  refine foldl_andi_ones _ (fun i => ?_) _
  obtain ⟨e, he⟩ := bcast_exists ![0] bcast_S800000_S800000x1_0
    (select (cmpi .slt (T.src (m ((c : Thread nD τ).loc main_arg1))) (broadcastInDim S800000 ![] bcast_S_S800000 (constantI S_ 32 0#32)))
      (addi (T.src (m ((c : Thread nD τ).loc main_arg1))) (broadcastInDim S800000 ![] bcast_S_S800000 (constantI S_ 32 50000#32)))
      (T.src (m ((c : Thread nD τ).loc main_arg1)))) i
  have hw : T.widx (m ((c : Thread nD τ).loc main_arg1)) i
      = Scalar.select (IntOp.cmpi .slt (T.src (m ((c : Thread nD τ).loc main_arg1)) e) 0#32)
          (IntOp.addi (T.src (m ((c : Thread nD τ).loc main_arg1)) e) 50000#32) (T.src (m ((c : Thread nD τ).loc main_arg1)) e) := he
  show IntOp.andi (IntOp.cmpi .sge (T.widx (m ((c : Thread nD τ).loc main_arg1)) i) 0#32)
    (IntOp.cmpi .sle (T.widx (m ((c : Thread nD τ).loc main_arg1)) i) 49999#32) = 1#1
  rw [hw]
  exact wrap_in_range _ (src_range m h c e).1 (src_range m h c e).2

theorem take64_eq (h : Cert.Pre_KernelIdeal m) (c : Dev nD) (x0 : FVec Ideal S50000x64 .f32) :
    T.take64 (F := Ideal) x0 (m ((c : Thread nD τ).loc main_arg1))
      = (Host.gather gather_S50000x64_S800000x1_S800000x64_1_0_n_n_0_1_164 x0 (T.widx (m ((c : Thread nD τ).loc main_arg1))) : FVec Ideal S800000x64 .f32) := by
  funext j
  unfold T.take64
  rw [ValueIdx.select_apply, mask_ones m h c]
  exact ValueIdx.select_one _ _

theorem take128_eq (h : Cert.Pre_KernelIdeal m) (c : Dev nD) (t : FVec Ideal S50000x128 .f32) :
    T.take128 (F := Ideal) t (m ((c : Thread nD τ).loc main_arg1))
      = (Host.gather gather_S50000x128_S800000x1_S800000x128_1_0_n_n_0_1_1128 t (T.widx (m ((c : Thread nD τ).loc main_arg1))) : FVec Ideal S800000x128 .f32) := by
  funext j
  unfold T.take128
  rw [ValueIdx.select_apply, mask_ones m h c]
  exact ValueIdx.select_one _ _

/-- The bias row read at its one row is the bias vector. -/
theorem row_apply (b : FVec Ideal S128 .f32) (q : Fin 128) : T.row (F := Ideal) b (ix2 (0 : Fin 1) q) = b (ix1 q) := by
  unfold T.row
  exact shapeCast_apply b shapeCasts_S128_S1x128 _ _ (by
    rw [Shape.rowMajor_val_two, Shape.rowMajor_val_one]
    show q.val = (0 : Fin 1).val * 128 + q.val
    simp)

end Cert.KernelIdeal.PreMask

end
-- ==== Proof.RefSide.lean ====
/- The reference read at an index, over its generated stage functions: the hidden table and the result as the two
   row-by-column sums plus the bias (the hidden table clamped below at zero), and each neighbour mean, a quotient by the
   in-degree raised to at least one, as a product with the reciprocal: the divisor is never zero, so the quotient is
   the product with the inverse. -/
import proofs.«413053_j40587440947286_1_alg».proof.Proof.Gen.ReferenceIdeal.Read
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.ReferenceIdeal.RefSide

open Cert.ReferenceIdeal Cert.ReferenceIdeal.Gen Cert.ReferenceIdeal.Read Idealize.ShloMosaic Idealize.ShloMosaic.TcCoe Idealize.SL.Sem
open Idealize.ShloMosaic.ValueIdx

/-! ## The generated index functions are the coordinate-built indices -/

/-- The left operand of the first hidden product is read at row `i 0`, column `k`. -/
theorem lidx24_eq (i : S50000x128.Idx) (k : Fin 64) :
    lidx_main_v24 i k = ix2 (⟨(i 0).val, (i 0).isLt⟩ : Fin 50000) k :=
  funext fun a => Fin.ext (by match a with | ⟨0, _⟩ => rfl | ⟨1, _⟩ => rfl)
/-- Its right operand at row `k`, column `i 1`. -/
theorem ridx24_eq (i : S50000x128.Idx) (k : Fin 64) :
    ridx_main_v24 i k = ix2 k (⟨(i 1).val, (i 1).isLt⟩ : Fin 128) :=
  funext fun a => Fin.ext (by match a with | ⟨0, _⟩ => rfl | ⟨1, _⟩ => rfl)
/-- The second hidden product reads its operands at the same places. -/
theorem lidx26_eq (i : S50000x128.Idx) (k : Fin 64) :
    lidx_main_v26 i k = ix2 (⟨(i 0).val, (i 0).isLt⟩ : Fin 50000) k :=
  funext fun a => Fin.ext (by match a with | ⟨0, _⟩ => rfl | ⟨1, _⟩ => rfl)
theorem ridx26_eq (i : S50000x128.Idx) (k : Fin 64) :
    ridx_main_v26 i k = ix2 k (⟨(i 1).val, (i 1).isLt⟩ : Fin 128) :=
  funext fun a => Fin.ext (by match a with | ⟨0, _⟩ => rfl | ⟨1, _⟩ => rfl)
/-- The hidden bias, broadcast twice, is read at column `i 1`. -/
theorem idx2829_eq (i : S50000x128.Idx) :
    idx_main_v28 (idx_main_v29 i) = ix1 (⟨(i 1).val, (i 1).isLt⟩ : Fin 128) :=
  funext fun a => Fin.ext (by match a with | ⟨0, _⟩ => rfl)
/-- The two output products read row `i 0`, column `k` on the left and row `k`, column `i 1` on the right. -/
theorem lidx52_eq (i : S50000x128.Idx) (k : Fin 128) :
    lidx_main_v52 i k = ix2 (⟨(i 0).val, (i 0).isLt⟩ : Fin 50000) k :=
  funext fun a => Fin.ext (by match a with | ⟨0, _⟩ => rfl | ⟨1, _⟩ => rfl)
theorem ridx52_eq (i : S50000x128.Idx) (k : Fin 128) :
    ridx_main_v52 i k = ix2 k (⟨(i 1).val, (i 1).isLt⟩ : Fin 128) :=
  funext fun a => Fin.ext (by match a with | ⟨0, _⟩ => rfl | ⟨1, _⟩ => rfl)
theorem lidx54_eq (i : S50000x128.Idx) (k : Fin 128) :
    lidx_main_v54 i k = ix2 (⟨(i 0).val, (i 0).isLt⟩ : Fin 50000) k :=
  funext fun a => Fin.ext (by match a with | ⟨0, _⟩ => rfl | ⟨1, _⟩ => rfl)
theorem ridx54_eq (i : S50000x128.Idx) (k : Fin 128) :
    ridx_main_v54 i k = ix2 k (⟨(i 1).val, (i 1).isLt⟩ : Fin 128) :=
  funext fun a => Fin.ext (by match a with | ⟨0, _⟩ => rfl | ⟨1, _⟩ => rfl)
/-- The output bias, broadcast twice, is read at column `i 1`. -/
theorem idx5657_eq (i : S50000x128.Idx) :
    idx_main_v56 (idx_main_v57 i) = ix1 (⟨(i 1).val, (i 1).isLt⟩ : Fin 128) :=
  funext fun a => Fin.ext (by match a with | ⟨0, _⟩ => rfl)

/-! ## The hidden table and the result at an index -/

theorem hidden_apply (x0 : FVec Ideal S50000x64 .f32) (x1 : IVec S2x800000 32) (x2 x3 : FVec Ideal S128x64 .f32) (x4 : FVec Ideal S128 .f32) (i : S50000x128.Idx) :
    val_main_v31 (F := Ideal) x0 x1 x2 x3 x4 i
      = max (((∑ k : Fin 64, val_main_v22 (F := Ideal) x0 x1 (ix2 (⟨(i 0).val, (i 0).isLt⟩ : Fin 50000) k) * val_main_v23 (F := Ideal) x2 (ix2 k (⟨(i 1).val, (i 1).isLt⟩ : Fin 128)))
          + (∑ k : Fin 64, x0 (ix2 (⟨(i 0).val, (i 0).isLt⟩ : Fin 50000) k) * val_main_v25 (F := Ideal) x3 (ix2 k (⟨(i 1).val, (i 1).isLt⟩ : Fin 128))))
          + x4 (ix1 (⟨(i 1).val, (i 1).isLt⟩ : Fin 128))) 0 := by
  rw [val_main_v31_apply, val_main_v30_apply, val_main_v27_apply, val_main_v24_apply, val_main_v26_apply,
    val_main_v29_apply, val_main_v28_apply, val_main_call0_v0_apply, val_main_call0_cst_apply]
  simp only [lidx24_eq, ridx24_eq, lidx26_eq, ridx26_eq, idx2829_eq, Ideal.maximumf_def, Ideal.addf_def]
  exact congrArg (max _) Ideal.ofBits_zero_f32

theorem out_apply (x0 : FVec Ideal S50000x64 .f32) (x1 : IVec S2x800000 32) (x2 x3 : FVec Ideal S128x64 .f32) (x4 : FVec Ideal S128 .f32) (x5 x6 : FVec Ideal S128x128 .f32) (x7 : FVec Ideal S128 .f32) (i : S50000x128.Idx) :
    val_main_v58 (F := Ideal) x0 x1 x2 x3 x4 x5 x6 x7 i
      = ((∑ k : Fin 128, val_main_v50 (F := Ideal) x0 x1 x2 x3 x4 (ix2 (⟨(i 0).val, (i 0).isLt⟩ : Fin 50000) k) * val_main_v51 (F := Ideal) x5 (ix2 k (⟨(i 1).val, (i 1).isLt⟩ : Fin 128)))
          + (∑ k : Fin 128, val_main_v31 (F := Ideal) x0 x1 x2 x3 x4 (ix2 (⟨(i 0).val, (i 0).isLt⟩ : Fin 50000) k) * val_main_v53 (F := Ideal) x6 (ix2 k (⟨(i 1).val, (i 1).isLt⟩ : Fin 128))))
          + x7 (ix1 (⟨(i 1).val, (i 1).isLt⟩ : Fin 128)) := by
  rw [val_main_v58_apply, val_main_v55_apply, val_main_v52_apply, val_main_v54_apply, val_main_v57_apply, val_main_v56_apply]
  simp only [lidx52_eq, ridx52_eq, lidx54_eq, ridx54_eq, idx5657_eq, Ideal.addf_def]

/-! ## A neighbour mean is the aggregate times the reciprocal of the raised degree -/

/-- A degree raised to at least one is not zero. -/
theorem max_one_ne_zero (e : EReal) : max e 1 ≠ 0 := by
  intro h
  have h1 : (1 : EReal) ≤ max e 1 := le_max_right e 1
  rw [h] at h1
  exact absurd h1 (by simp)

/-- The first raised degree is nowhere zero. -/
theorem deg64_ne_zero (x1 : IVec S2x800000 32) (j : S50000.Idx) : val_main_v19 (F := Ideal) x1 j ≠ 0 := by
  rw [val_main_v19_apply, val_main_v18_apply, val_main_cst_3_apply]
  generalize val_main_v17 (F := Ideal) x1 j = e
  show max e (Ideal.ofBits .f32 0x3F800000#32) ≠ 0
  rw [Ideal.ofBits_one_f32]
  exact max_one_ne_zero e

/-- The second raised degree is nowhere zero. -/
theorem deg128_ne_zero (x1 : IVec S2x800000 32) (j : S50000.Idx) : val_main_v47 (F := Ideal) x1 j ≠ 0 := by
  rw [val_main_v47_apply, val_main_v46_apply, val_main_cst_9_apply]
  generalize val_main_v45 (F := Ideal) x1 j = e
  show max e (Ideal.ofBits .f32 0x3F800000#32) ≠ 0
  rw [Ideal.ofBits_one_f32]
  exact max_one_ne_zero e

/-- The first neighbour mean as aggregate times reciprocal degree. -/
theorem mean64_law (x0 : FVec Ideal S50000x64 .f32) (x1 : IVec S2x800000 32) :
    val_main_v22 (F := Ideal) x0 x1
      = mulf (F := Ideal) (val_main_v13 (F := Ideal) x0 x1)
          (broadcastInDim S50000x64 ![0, 1] bcast_S50000x1_S50000x64_0_1 (broadcastInDim S50000x1 ![0] bcast_S50000_S50000x1_0
            (Host.divf (F := Ideal) (broadcastInDim S50000 ![] bcast_S_S50000 (constant (F := Ideal) S_ .f32 0x3F800000#32)) (val_main_v19 (F := Ideal) x1)))) := by
  have hD := deg64_ne_zero x1
  funext i
  unfold val_main_v22 val_main_v21 val_main_v20
  generalize val_main_v13 (F := Ideal) x0 x1 = A
  generalize val_main_v19 (F := Ideal) x1 = D at hD
  -- the two broadcasts read their operand at one projected index, the same on both sides
  obtain ⟨j, hj⟩ : ∃ j : S50000.Idx, ∀ y : FVec Ideal S50000 .f32,
      broadcastInDim S50000x64 ![0, 1] bcast_S50000x1_S50000x64_0_1 (broadcastInDim S50000x1 ![0] bcast_S50000_S50000x1_0 y) i = y j :=
    ⟨_, fun y => rfl⟩
  rw [ValueIdx.hostDivf_apply, ValueIdx.mulf_apply, hj, hj, ValueIdx.hostDivf_apply]
  rw [ValueIdx.broadcastInDim_scalar_apply, ValueIdx.constant_apply, Ideal.ofBits_one_f32]
  exact (Ideal.mul_one_div (hD j)).symm

/-- The second neighbour mean as aggregate times reciprocal degree. -/
theorem mean128_law (x0 : FVec Ideal S50000x64 .f32) (x1 : IVec S2x800000 32) (x2 x3 : FVec Ideal S128x64 .f32) (x4 : FVec Ideal S128 .f32) :
    val_main_v50 (F := Ideal) x0 x1 x2 x3 x4
      = mulf (F := Ideal) (val_main_v41 (F := Ideal) x0 x1 x2 x3 x4)
          (broadcastInDim S50000x128 ![0, 1] bcast_S50000x1_S50000x128_0_1 (broadcastInDim S50000x1 ![0] bcast_S50000_S50000x1_0
            (Host.divf (F := Ideal) (broadcastInDim S50000 ![] bcast_S_S50000 (constant (F := Ideal) S_ .f32 0x3F800000#32)) (val_main_v47 (F := Ideal) x1)))) := by
  have hD := deg128_ne_zero x1
  funext i
  unfold val_main_v50 val_main_v49 val_main_v48
  generalize val_main_v41 (F := Ideal) x0 x1 x2 x3 x4 = A
  generalize val_main_v47 (F := Ideal) x1 = D at hD
  -- the two broadcasts read their operand at one projected index, the same on both sides
  obtain ⟨j, hj⟩ : ∃ j : S50000.Idx, ∀ y : FVec Ideal S50000 .f32,
      broadcastInDim S50000x128 ![0, 1] bcast_S50000x1_S50000x128_0_1 (broadcastInDim S50000x1 ![0] bcast_S50000_S50000x1_0 y) i = y j :=
    ⟨_, fun y => rfl⟩
  rw [ValueIdx.hostDivf_apply, ValueIdx.mulf_apply, hj, hj, ValueIdx.hostDivf_apply]
  rw [ValueIdx.broadcastInDim_scalar_apply, ValueIdx.constant_apply, Ideal.ofBits_one_f32]
  exact (Ideal.mul_one_div (hD j)).symm

/-! ## The reference's run -/

/-- The reference's run with its result named by the last stage function. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v58) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (val_main_v58_eq m c), (h c).2⟩)
    (Cert.ReferenceIdeal.Value.run (F := Ideal) m ρ)

end Cert.ReferenceIdeal.RefSide

end
-- ==== Proof.Bridge.lean ====
/- The kernel program's result is the reference's: both are the second dense stage of the second neighbour mean and
   the hidden table, and the hidden table is the first dense stage, clamped below at zero, of the first neighbour mean
   and the node table. Under the precondition the kernel's masked gather is the reference's plain gather, the kernel's
   product with the reciprocal degree is the reference's quotient by the degree raised to at least one, and the
   transposed weights, the aggregations and the bias are the same terms on both sides. -/
import proofs.«413053_j40587440947286_1_alg».proof.Proof.KHost
import proofs.«413053_j40587440947286_1_alg».proof.Proof.RegionValue0
import proofs.«413053_j40587440947286_1_alg».proof.Proof.RegionValue1
import proofs.«413053_j40587440947286_1_alg».proof.Proof.PreMask
import proofs.«413053_j40587440947286_1_alg».proof.Proof.RefSide

set_option maxRecDepth 16384

noncomputable section

namespace Cert.Proof.Bridge

open Idealize.ShloMosaic Idealize.ShloMosaic.TcCoe Idealize.SL.Sem
open Idealize.ShloMosaic.ValueIdx

section terms
variable (x0 : FVec Ideal Cert.KernelIdeal.S50000x64 .f32) (x1 : IVec Cert.KernelIdeal.S2x800000 32)
  (x2 x3 : FVec Ideal Cert.KernelIdeal.S128x64 .f32) (x4 : FVec Ideal Cert.KernelIdeal.S128 .f32)
  (x5 x6 : FVec Ideal Cert.KernelIdeal.S128x128 .f32) (x7 : FVec Ideal Cert.KernelIdeal.S128 .f32)

/-- The transposed first-layer weights are one term on both sides. -/
theorem tr64_l : Cert.KernelIdeal.T.tr64 (F := Ideal) x2 = Cert.ReferenceIdeal.Read.val_main_v23 (F := Ideal) x2 := rfl
theorem tr64_r : Cert.KernelIdeal.T.tr64 (F := Ideal) x3 = Cert.ReferenceIdeal.Read.val_main_v25 (F := Ideal) x3 := rfl
theorem tr128_l : Cert.KernelIdeal.T.tr128 (F := Ideal) x5 = Cert.ReferenceIdeal.Read.val_main_v51 (F := Ideal) x5 := rfl
theorem tr128_r : Cert.KernelIdeal.T.tr128 (F := Ideal) x6 = Cert.ReferenceIdeal.Read.val_main_v53 (F := Ideal) x6 := rfl

/-- The plain gather followed by the scatter-add is the reference's first aggregation. -/
theorem agg64_eq :
    Cert.KernelIdeal.T.scat64 (F := Ideal) x1 (Host.gather Cert.KernelIdeal.gather_S50000x64_S800000x1_S800000x64_1_0_n_n_0_1_164 x0 (Cert.KernelIdeal.T.widx x1))
      = Cert.ReferenceIdeal.Read.val_main_v13 (F := Ideal) x0 x1 := rfl

/-- The reciprocal degree spread over the columns is the reference's degree stage under the same reciprocal. -/
theorem invb64_eq :
    Cert.KernelIdeal.T.invb64 (F := Ideal) x1
      = broadcastInDim Cert.ReferenceIdeal.S50000x64 ![0, 1] Cert.ReferenceIdeal.Gen.bcast_S50000x1_S50000x64_0_1 (broadcastInDim Cert.ReferenceIdeal.S50000x1 ![0] Cert.ReferenceIdeal.Gen.bcast_S50000_S50000x1_0
          (Host.divf (F := Ideal) (broadcastInDim Cert.ReferenceIdeal.S50000 ![] Cert.ReferenceIdeal.Gen.bcast_S_S50000 (constant (F := Ideal) Cert.ReferenceIdeal.S_ .f32 0x3F800000#32)) (Cert.ReferenceIdeal.Read.val_main_v19 (F := Ideal) x1))) := rfl

theorem invb128_eq :
    Cert.KernelIdeal.T.invb128 (F := Ideal) x1
      = broadcastInDim Cert.ReferenceIdeal.S50000x128 ![0, 1] Cert.ReferenceIdeal.Gen.bcast_S50000x1_S50000x128_0_1 (broadcastInDim Cert.ReferenceIdeal.S50000x1 ![0] Cert.ReferenceIdeal.Gen.bcast_S50000_S50000x1_0
          (Host.divf (F := Ideal) (broadcastInDim Cert.ReferenceIdeal.S50000 ![] Cert.ReferenceIdeal.Gen.bcast_S_S50000 (constant (F := Ideal) Cert.ReferenceIdeal.S_ .f32 0x3F800000#32)) (Cert.ReferenceIdeal.Read.val_main_v47 (F := Ideal) x1))) := rfl

/-- The plain gather of the reference's hidden table followed by the scatter-add is the reference's second aggregation. -/
theorem agg128_eq :
    Cert.KernelIdeal.T.scat128 (F := Ideal) x1 (Host.gather Cert.KernelIdeal.gather_S50000x128_S800000x1_S800000x128_1_0_n_n_0_1_1128 (Cert.ReferenceIdeal.Read.val_main_v31 (F := Ideal) x0 x1 x2 x3 x4) (Cert.KernelIdeal.T.widx x1))
      = Cert.ReferenceIdeal.Read.val_main_v41 (F := Ideal) x0 x1 x2 x3 x4 := rfl

end terms

section main
open Cert.KernelIdeal Cert.KernelIdeal.Gen

variable (m : (ℓ : Loc nD τ sig) → Buf (Elt Ideal) ℓ) (ρ : Dev nD → PrngReg)

/-- Under the precondition the kernel's first neighbour mean is the reference's. -/
theorem mean64_eq (h : Cert.Pre_KernelIdeal m) (c : Dev nD) (x0 : FVec Ideal S50000x64 .f32) :
    T.mean64 (F := Ideal) x0 (m ((c : Thread nD τ).loc main_arg1))
      = Cert.ReferenceIdeal.Read.val_main_v22 (F := Ideal) x0 (m ((c : Thread nD τ).loc main_arg1)) := by
  unfold T.mean64
  rw [Cert.KernelIdeal.PreMask.take64_eq m h c x0]
  exact (Cert.ReferenceIdeal.RefSide.mean64_law x0 (m ((c : Thread nD τ).loc main_arg1))).symm

/-- Under the precondition the kernel's second neighbour mean, of the reference's hidden table, is the reference's. -/
theorem mean128_eq (h : Cert.Pre_KernelIdeal m) (c : Dev nD) (x0 : FVec Ideal S50000x64 .f32) (x2 x3 : FVec Ideal S128x64 .f32) (x4 : FVec Ideal S128 .f32) :
    T.mean128 (F := Ideal) (Cert.ReferenceIdeal.Read.val_main_v31 (F := Ideal) x0 (m ((c : Thread nD τ).loc main_arg1)) x2 x3 x4) (m ((c : Thread nD τ).loc main_arg1))
      = Cert.ReferenceIdeal.Read.val_main_v50 (F := Ideal) x0 (m ((c : Thread nD τ).loc main_arg1)) x2 x3 x4 := by
  unfold T.mean128
  rw [Cert.KernelIdeal.PreMask.take128_eq m h c _]
  exact (Cert.ReferenceIdeal.RefSide.mean128_law x0 (m ((c : Thread nD τ).loc main_arg1)) x2 x3 x4).symm

/-- The hidden table the first region leaves is the reference's hidden table. -/
theorem hid_eq (h : Cert.Pre_KernelIdeal m) (c : Dev nD) :
    Cert.KernelIdeal.KHost.hid m ρ c
      = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show (dat0 (F := Ideal) (V3 m ρ) c).arrAt 5 cfg0.N = _
  rw [Cert.KernelIdeal.RegionValue.final0 (V3 m ρ) c, Cert.KernelIdeal.KHost.V3_v18, Cert.KernelIdeal.KHost.V3_arg0, Cert.KernelIdeal.KHost.V3_v19, Cert.KernelIdeal.KHost.V3_v20, Cert.KernelIdeal.KHost.V3_v21]
  funext i
  rw [Cert.ReferenceIdeal.RefSide.hidden_apply]
  unfold Cert.KernelIdeal.RegionValue.lin64
  rw [mean64_eq m h c, tr64_l, tr64_r, Cert.KernelIdeal.PreMask.row_apply]

/-- THE KERNEL PROGRAM'S RESULT, at the last boundary of its run, is the reference's result stage of the arguments. -/
theorem kernel_value (h : Cert.Pre_KernelIdeal m) (c : Dev nD) :
    W7 m ρ c (Proc.devRef .tc main_v33)
      = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.KernelIdeal.KHost.W7_v33, Cert.KernelIdeal.RegionValue1.final1 (V6 m ρ) c, Cert.KernelIdeal.KHost.V6_v29, Cert.KernelIdeal.KHost.V6_v22, Cert.KernelIdeal.KHost.V6_v30, Cert.KernelIdeal.KHost.V6_v31, Cert.KernelIdeal.KHost.V6_v32, hid_eq m ρ h c]
  funext i
  rw [Cert.ReferenceIdeal.RefSide.out_apply]
  unfold Cert.KernelIdeal.RegionValue1.lin128
  rw [mean128_eq m h c, tr128_l, tr128_r, Cert.KernelIdeal.PreMask.row_apply]

end main

end Cert.Proof.Bridge

end
-- ==== Proof.lean ====
/- The certificate's claim assembled. The three frames are the generated frames of the two kernel programs and the
   reference's generated run with its result dropped. The idealization ledger is empty. For the value claim both runs end
   with the result buffer at ONE function of the argument arrays, the reference's last stage: the reference by its own
   run, the kernel program because its result, read off its run through the two pipelined regions and the host
   operations around them, is that stage under the precondition (every source id a valid row index). -/
import proofs.«413053_j40587440947286_1_alg».proof.Defs
import proofs.«413053_j40587440947286_1_alg».proof.Proof.Gen.Kernel
import proofs.«413053_j40587440947286_1_alg».proof.Proof.Gen.Kernel.Skeleton
import proofs.«413053_j40587440947286_1_alg».proof.Proof.Gen.Kernel.Launch
import proofs.«413053_j40587440947286_1_alg».proof.Proof.Gen.Kernel.Points
import proofs.«413053_j40587440947286_1_alg».proof.Proof.Gen.Kernel.Frame
import proofs.«413053_j40587440947286_1_alg».proof.Proof.Gen.KernelIdeal
import proofs.«413053_j40587440947286_1_alg».proof.Proof.Gen.KernelIdeal.Skeleton
import proofs.«413053_j40587440947286_1_alg».proof.Proof.Gen.KernelIdeal.Launch
import proofs.«413053_j40587440947286_1_alg».proof.Proof.Gen.KernelIdeal.Points
import proofs.«413053_j40587440947286_1_alg».proof.Proof.Gen.KernelIdeal.Frame
import proofs.«413053_j40587440947286_1_alg».proof.Proof.Gen.ReferenceIdeal
import proofs.«413053_j40587440947286_1_alg».proof.Proof.Gen.Pre_finite_inputs
import proofs.«413053_j40587440947286_1_alg».proof.Proof.Gen.ReferenceIdeal.Run
import proofs.«413053_j40587440947286_1_alg».proof.Proof.Gen.ReferenceIdeal.Read
import proofs.«413053_j40587440947286_1_alg».proof.Proof.KRun
import proofs.«413053_j40587440947286_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the result at the reference's last stage of the
    arguments. -/
theorem algebraic : Cert.algebraic_KernelIdeal_ReferenceIdeal := by
  intro m ρ m' ρ' hpre hagree
  refine ⟨fun c => Cert.ReferenceIdeal.Read.val_main_v58 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Proof.Bridge.kernel_value m ρ hpre c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.RefSide.ref_run m' ρ')
    obtain ⟨h0, h1, h2, h3, h4, h5, h6, h7⟩ := hagree c
    rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
